-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩

class Facts : Prop where
  bcast_S_S262144x48 : S_.BroadcastsInDim S262144x48 (![] : Fin 0 → Fin S262144x48.rank)
  reducesTo_S262144x48_S_d0_1 : S262144x48.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S48x256 : S_.BroadcastsInDim S48x256 (![] : Fin 0 → Fin S48x256.rank)
  reducesTo_S48x256_S_d0_1 : S48x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg14 : FVec F S256 .f32) (main_arg15 : FVec F S256 .f32) (main_arg16 : FVec F S256x32 .f32) (main_arg17 : FVec F S32 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x32 .f32 := Host.absf main_arg16
  let main_cst_30 : FVec F S_ .f32 := constant S_ .f32 0x7F800000#32
  let main_v80 : FVec F S256x32 .f32 := broadcastInDim S256x32 ![] bcast_S_S256x32 main_cst_30
  let main_v81 : IVec S256x32 1 := cmpf .olt main_v79 main_v80
  let main_c_31 : IVec S_ 1 := constantI S_ 1 1#1
  let main_v82 : IVec S_ 1 := (fun x v => Host.reduce IntOp.andi x v reducesTo_S256x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S262144x48 .f32) (main_arg1 : FVec F S262144x256 .f32) (main_arg2 : FVec F S48x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S256 .f32) (main_arg15 : FVec F S256 .f32) (main_arg16 : FVec F S256x32 .f32) (main_arg17 : FVec F S32 .f32) : IVec S_ 1 :=
  let main_v0 : FVec F S262144x48 .f32 := Host.absf main_arg0
  let main_cst : FVec F S_ .f32 := constant S_ .f32 0x7F800000#32
  let main_v1 : FVec F S262144x48 .f32 := broadcastInDim S262144x48 ![] bcast_S_S262144x48 main_cst
  let main_v2 : IVec S262144x48 1 := cmpf .olt main_v0 main_v1
  let main_c : IVec S_ 1 := constantI S_ 1 1#1
  let main_v3 : IVec S_ 1 := (fun x v => Host.reduce IntOp.andi x v reducesTo_S262144x48_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S48x256 .f32 := Host.absf main_arg2
  let main_cst_2 : FVec F S_ .f32 := constant S_ .f32 0x7F800000#32
  let main_v10 : FVec F S48x256 .f32 := broadcastInDim S48x256 ![] bcast_S_S48x256 main_cst_2
  let main_v11 : IVec S48x256 1 := cmpf .olt main_v9 main_v10
  let main_c_3 : IVec S_ 1 := constantI S_ 1 1#1
  let main_v12 : IVec S_ 1 := (fun x v => Host.reduce IntOp.andi x v reducesTo_S48x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x256 : Shape := ⟨2, ![1, 256]⟩
abbrev S1x32 : Shape := ⟨2, ![1, 32]⟩
abbrev S262144x32 : Shape := ⟨2, ![262144, 32]⟩
abbrev S2048x48 : Shape := ⟨2, ![2048, 48]⟩
abbrev S2048x256 : Shape := ⟨2, ![2048, 256]⟩
abbrev S2048x32 : Shape := ⟨2, ![2048, 32]⟩
abbrev S2048 : Shape := ⟨1, ![2048]⟩
abbrev S2048x1 : Shape := ⟨2, ![2048, 1]⟩
abbrev S262144x8x4 : Shape := ⟨3, ![262144, 8, 4]⟩

abbrev nBuf : Space → Nat
  | .hbm => 33
  | .vmem => 24
  | .smem => 0
  | _ => 0

abbrev bufTy : (tb : Table) → Fin (tcTables nBuf tb) → BufTy
  | .hbm, ⟨0, _⟩ => ⟨S262144x48, .f32⟩
  | .hbm, ⟨1, _⟩ => ⟨S262144x256, .f32⟩
  | .hbm, ⟨2, _⟩ => ⟨S48x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x32, .f32⟩
  | .hbm, ⟨17, _⟩ => ⟨S32, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x32, .f32⟩
  | .hbm, ⟨30, _⟩ => ⟨S262144x256, .f32⟩
  | .hbm, ⟨31, _⟩ => ⟨S262144x32, .f32⟩
  | .hbm, ⟨32, _⟩ => ⟨S262144x8x4, .f32⟩
  | .local _ .vmem, ⟨0, _⟩ => ⟨S2048x48, .f32⟩
  | .local _ .vmem, ⟨1, _⟩ => ⟨S2048x48, .f32⟩
  | .local _ .vmem, ⟨2, _⟩ => ⟨S2048x256, .f32⟩
  | .local _ .vmem, ⟨3, _⟩ => ⟨S2048x256, .f32⟩
  | .local _ .vmem, ⟨4, _⟩ => ⟨S48x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x32, .f32⟩
  | .local _ .vmem, ⟨19, _⟩ => ⟨S1x32, .f32⟩
  | .local _ .vmem, ⟨20, _⟩ => ⟨S2048x256, .f32⟩
  | .local _ .vmem, ⟨21, _⟩ => ⟨S2048x256, .f32⟩
  | .local _ .vmem, ⟨22, _⟩ => ⟨S2048x32, .f32⟩
  | .local _ .vmem, ⟨23, _⟩ => ⟨S2048x32, .f32⟩
  | _, _ => ⟨S262144x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S256_S1x256 : S256.ShapeCasts S1x256
  shapeCasts_S32_S1x32 : S32.ShapeCasts S1x32
  inb_S2048x48_S2048x48_0_0 : ∀ a, (![0, 0] : Fin 2 → Nat) a + S2048x48.size a ≤ S2048x48.size a
  h_S2048x48 : 0 < S2048x48.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S48x256_S48x256_0_0 : ∀ a, (![0, 0] : Fin 2 → Nat) a + S48x256.size a ≤ S48x256.size a
  h_S48x256 : 0 < S48x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S262144x32_S262144x8x4 : S262144x32.ShapeCasts S262144x8x4
  dot_S2048x48_S48x256_S2048x256_1_0_0_1_n_n_wf : DotDims.WF S2048x48 S48x256 S2048x256 [1] [0] [0] [1] [] []
  dot_S2048x256_S256x256_S2048x256_1_0_0_1_n_n_wf : DotDims.WF S2048x256 S256x256 S2048x256 [1] [0] [0] [1] [] []
  dot_S2048x256_S256x32_S2048x32_1_0_0_1_n_n_wf : DotDims.WF S2048x256 S256x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x48.size a ≤ S262144x48.size a
  hwx0_0 : ∀ i : grid0.Coords, EltTy.bits .f32 = 32 ∨ (Rect.block (s := S262144x48) S2048x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x256.size a ≤ S48x256.size a
  hwx0_2 : ∀ i : grid0.Coords, EltTy.bits .f32 = 32 ∨ (Rect.block (s := S48x256) S48x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x32.size a ≤ S256x32.size a
  hwx0_16 : ∀ i : grid0.Coords, EltTy.bits .f32 = 32 ∨ (Rect.block (s := S256x32) S256x32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x32.size a ≤ S1x32.size a
  hwx0_17 : ∀ i : grid0.Coords, EltTy.bits .f32 = 32 ∨ (Rect.block (s := S1x32) S1x32.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2048x256.size a ≤ S262144x256.size a
  hwx0_18 : ∀ i : grid0.Coords, EltTy.bits .f32 = 32 ∨ (Rect.block (s := S262144x256) S2048x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x32.size a ≤ S262144x32.size a
  hwx0_19 : ∀ i : grid0.Coords, EltTy.bits .f32 = 32 ∨ (Rect.block (s := S262144x32) S2048x32.size (cc0_transform_19 i) (hinb0_19 i)).WholeWords (EltTy.packing .f32)

variable [Facts₀]

def dot_S2048x48_S48x256_S2048x256_1_0_0_1_n_n : DotDims S2048x48 S48x256 S2048x256 where
  lhsContracting := [1]
  rhsContracting := [0]
  lhsNonContracting := [0]
  rhsNonContracting := [1]
  lhsBatch := []
  rhsBatch := []
  wf := dot_S2048x48_S48x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf

abbrev win0_0 : Pipeline.Window sig grid0 :=
  Pipeline.Window.ofSpec (Memref.whole main_arg0) S2048x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v11) S1x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12_0) S2048x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v12_1) S2048x32.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S262144x48 : Shape := ⟨2, ![262144, 48]⟩
abbrev S262144x256 : Shape := ⟨2, ![262144, 256]⟩
abbrev S48x256 : Shape := ⟨2, ![48, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x256 : Shape := ⟨2, ![1, 256]⟩
abbrev S_ : Shape := ⟨0, ![]⟩
abbrev S262144 : Shape := ⟨1, ![262144]⟩
abbrev S262144x1 : Shape := ⟨2, ![262144, 1]⟩
abbrev S262144x32 : Shape := ⟨2, ![262144, 32]⟩
abbrev S1x32 : Shape := ⟨2, ![1, 32]⟩
abbrev S262144x8x4 : Shape := ⟨3, ![262144, 8, 4]⟩

abbrev nBuf : Space → Nat
  | .hbm => 159
  | .vmem => 0
  | .smem => 0
  | _ => 0

abbrev hbmTy0_0 (i : Nat) : BufTy := match i % 128 with
  | 0 => ⟨S262144x48, .f32⟩
  | 1 => ⟨S262144x256, .f32⟩
  | 2 => ⟨S48x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S256, .f32⟩
  | 15 => ⟨S256, .f32⟩
  | 16 => ⟨S256x32, .f32⟩
  | 17 => ⟨S32, .f32⟩
  | 18 => ⟨S262144x256, .f32⟩
  | 19 => ⟨S1x256, .f32⟩
  | 20 => ⟨S262144x256, .f32⟩
  | 21 => ⟨S262144x256, .f32⟩
  | 22 => ⟨S_, .f32⟩
  | 23 => ⟨S262144, .f32⟩
  | 24 => ⟨S262144x1, .f32⟩
  | 25 => ⟨S_, .f32⟩
  | 26 => ⟨S262144x1, .f32⟩
  | 27 => ⟨S262144x1, .f32⟩
  | 28 => ⟨S262144x256, .f32⟩
  | 29 => ⟨S262144x256, .f32⟩
  | 30 => ⟨S262144x256, .f32⟩
  | 31 => ⟨S_, .f32⟩
  | 32 => ⟨S262144, .f32⟩
  | 33 => ⟨S262144x1, .f32⟩
  | 34 => ⟨S_, .f32⟩
  | 35 => ⟨S262144x1, .f32⟩
  | 36 => ⟨S262144x1, .f32⟩
  | 37 => ⟨S262144x256, .f32⟩
  | 38 => ⟨S262144x256, .f32⟩
  | 39 => ⟨S_, .f32⟩
  | 40 => ⟨S262144x1, .f32⟩
  | 41 => ⟨S262144x1, .f32⟩
  | 42 => ⟨S262144x1, .f32⟩
  | 43 => ⟨S262144x256, .f32⟩
  | 44 => ⟨S262144x256, .f32⟩
  | 45 => ⟨S1x256, .f32⟩
  | 46 => ⟨S262144x256, .f32⟩
  | 47 => ⟨S262144x256, .f32⟩
  | 48 => ⟨S1x256, .f32⟩
  | 49 => ⟨S262144x256, .f32⟩
  | 50 => ⟨S262144x256, .f32⟩
  | 51 => ⟨S262144x256, .f32⟩
  | 52 => ⟨S1x256, .f32⟩
  | 53 => ⟨S262144x256, .f32⟩
  | 54 => ⟨S262144x256, .f32⟩
  | 55 => ⟨S_, .f32⟩
  | 56 => ⟨S262144x256, .f32⟩
  | 57 => ⟨S262144x256, .f32⟩
  | 58 => ⟨S_, .f32⟩
  | 59 => ⟨S262144, .f32⟩
  | 60 => ⟨S262144x1, .f32⟩
  | 61 => ⟨S_, .f32⟩
  | 62 => ⟨S262144x1, .f32⟩
  | 63 => ⟨S262144x1, .f32⟩
  | 64 => ⟨S262144x256, .f32⟩
  | 65 => ⟨S262144x256, .f32⟩
  | 66 => ⟨S262144x256, .f32⟩
  | 67 => ⟨S_, .f32⟩
  | 68 => ⟨S262144, .f32⟩
  | 69 => ⟨S262144x1, .f32⟩
  | 70 => ⟨S_, .f32⟩
  | 71 => ⟨S262144x1, .f32⟩
  | 72 => ⟨S262144x1, .f32⟩
  | 73 => ⟨S262144x256, .f32⟩
  | 74 => ⟨S262144x256, .f32⟩
  | 75 => ⟨S_, .f32⟩
  | 76 => ⟨S262144x1, .f32⟩
  | 77 => ⟨S262144x1, .f32⟩
  | 78 => ⟨S262144x1, .f32⟩
  | 79 => ⟨S262144x256, .f32⟩
  | 80 => ⟨S262144x256, .f32⟩
  | 81 => ⟨S1x256, .f32⟩
  | 82 => ⟨S262144x256, .f32⟩
  | 83 => ⟨S262144x256, .f32⟩
  | 84 => ⟨S1x256, .f32⟩
  | 85 => ⟨S262144x256, .f32⟩
  | 86 => ⟨S262144x256, .f32⟩
  | 87 => ⟨S262144x256, .f32⟩
  | 88 => ⟨S262144x256, .f32⟩
  | 89 => ⟨S1x256, .f32⟩
  | 90 => ⟨S262144x256, .f32⟩
  | 91 => ⟨S262144x256, .f32⟩
  | 92 => ⟨S_, .f32⟩
  | 93 => ⟨S262144, .f32⟩
  | 94 => ⟨S262144x1, .f32⟩
  | 95 => ⟨S_, .f32⟩
  | 96 => ⟨S262144x1, .f32⟩
  | 97 => ⟨S262144x1, .f32⟩
  | 98 => ⟨S262144x256, .f32⟩
  | 99 => ⟨S262144x256, .f32⟩
  | 100 => ⟨S262144x256, .f32⟩
  | 101 => ⟨S_, .f32⟩
  | 102 => ⟨S262144, .f32⟩
  | 103 => ⟨S262144x1, .f32⟩
  | 104 => ⟨S_, .f32⟩
  | 105 => ⟨S262144x1, .f32⟩
  | 106 => ⟨S262144x1, .f32⟩
  | 107 => ⟨S262144x256, .f32⟩
  | 108 => ⟨S262144x256, .f32⟩
  | 109 => ⟨S_, .f32⟩
  | 110 => ⟨S262144x1, .f32⟩
  | 111 => ⟨S262144x1, .f32⟩
  | 112 => ⟨S262144x1, .f32⟩
  | 113 => ⟨S262144x256, .f32⟩
  | 114 => ⟨S262144x256, .f32⟩
  | 115 => ⟨S1x256, .f32⟩
  | 116 => ⟨S262144x256, .f32⟩
  | 117 => ⟨S262144x256, .f32⟩
  | 118 => ⟨S1x256, .f32⟩
  | 119 => ⟨S262144x256, .f32⟩
  | 120 => ⟨S262144x256, .f32⟩
  | 121 => ⟨S262144x256, .f32⟩
  | 122 => ⟨S_, .f32⟩
  | 123 => ⟨S262144x256, .f32⟩
  | 124 => ⟨S262144x256, .f32⟩
  | 125 => ⟨S_, .f32⟩
  | 126 => ⟨S262144, .f32⟩
  | 127 => ⟨S262144x1, .f32⟩
  | _ => ⟨S262144x48, .f32⟩

abbrev hbmTy0_1 (i : Nat) : BufTy := match i % 128 with
  | 0 => ⟨S_, .f32⟩
  | 1 => ⟨S262144x1, .f32⟩
  | 2 => ⟨S262144x1, .f32⟩
  | 3 => ⟨S262144x256, .f32⟩
  | 4 => ⟨S262144x256, .f32⟩
  | 5 => ⟨S262144x256, .f32⟩
  | 6 => ⟨S_, .f32⟩
  | 7 => ⟨S262144, .f32⟩
  | 8 => ⟨S262144x1, .f32⟩
  | 9 => ⟨S_, .f32⟩
  | 10 => ⟨S262144x1, .f32⟩
  | 11 => ⟨S262144x1, .f32⟩
  | 12 => ⟨S262144x256, .f32⟩
  | 13 => ⟨S262144x256, .f32⟩
  | 14 => ⟨S_, .f32⟩
  | 15 => ⟨S262144x1, .f32⟩
  | 16 => ⟨S262144x1, .f32⟩
  | 17 => ⟨S262144x1, .f32⟩
  | 18 => ⟨S262144x256, .f32⟩
  | 19 => ⟨S262144x256, .f32⟩
  | 20 => ⟨S1x256, .f32⟩
  | 21 => ⟨S262144x256, .f32⟩
  | 22 => ⟨S262144x256, .f32⟩
  | 23 => ⟨S1x256, .f32⟩
  | 24 => ⟨S262144x256, .f32⟩
  | 25 => ⟨S262144x256, .f32⟩
  | 26 => ⟨S262144x32, .f32⟩
  | 27 => ⟨S1x32, .f32⟩
  | 28 => ⟨S262144x32, .f32⟩
  | 29 => ⟨S262144x32, .f32⟩
  | 30 => ⟨S262144x8x4, .f32⟩
  | _ => ⟨S262144x48, .f32⟩

abbrev hbmTy (i : Nat) : BufTy := match i / 128 with
  | 0 => hbmTy0_0 i
  | 1 => hbmTy0_1 i
  | _ => ⟨S262144x48, .f32⟩

abbrev bufTy : (tb : Table) → Fin (tcTables nBuf tb) → BufTy
  | .hbm, ⟨i, _⟩ => hbmTy i
  | _, _ => ⟨S262144x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call0_cst : Ref sig .tc := ⟨.hbm, 55, rfl⟩
abbrev main_call0_v0 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call1_cst : Ref sig .tc := ⟨.hbm, 122, rfl⟩
abbrev main_call1_v0 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_16 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_18 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S_S262144x256 : S_.BroadcastsInDim S262144x256 (![] : Fin 0 → Fin S262144x256.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  shapeCasts_S262144x32_S262144x8x4 : S262144x32.ShapeCasts S262144x8x4
  dot_S262144x48_S48x256_S262144x256_1_0_0_1_n_n_wf : DotDims.WF S262144x48 S48x256 S262144x256 [1] [0] [0] [1] [] []
  dot_S262144x256_S256x256_S262144x256_1_0_0_1_n_n_wf : DotDims.WF S262144x256 S256x256 S262144x256 [1] [0] [0] [1] [] []
  dot_S262144x256_S256x32_S262144x32_1_0_0_1_n_n_wf : DotDims.WF S262144x256 S256x32 S262144x32 [1] [0] [0] [1] [] []

variable [Facts₀]

def dot_S262144x48_S48x256_S262144x256_1_0_0_1_n_n : DotDims S262144x48 S48x256 S262144x256 where
  lhsContracting := [1]
  rhsContracting := [0]
  lhsNonContracting := [0]
  rhsNonContracting := [1]
  lhsBatch := []
  rhsBatch := []
  wf := dot_S262144x48_S48x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf

class Facts : Prop extends Facts₀ where

variable [Facts]
-- ==== Proof.RowSpec.lean ====
/-
  The network on ONE ROW, over the extended reals.

  Every operation of the layer acts on a row of the batch by itself: a linear map (a row times a weight matrix plus a
  bias), a layer normalisation over the row's 256 features, a rectifier. So the whole layer is a function of one row
  of `x` (48 features), the same row of `z` (256 features) and the weights, and an output array is that function
  applied row by row. This module states it, with no program in sight.

    lin v W b       j ↦ (∑ k, v k · W k j) + b j
    relu v          j ↦ max (v j) 0
    mean v          (∑ k, v k) / 256
    centre v        j ↦ v j − mean v
    rstd d          ((∑ k, d k · d k) / 256 + ε)^(−1/2)
    layerNorm v g b j ↦ centre v j · rstd (centre v) · g j + b j

    xinp  = layerNorm (lin x W_inp b_inp) g_inp β_inp
    z1    = layerNorm (relu (lin z W1 b1)) g1 β1
    inner = layerNorm (xinp + lin z1 W2 b2) g2 β2
    zout  = layerNorm (relu (z1 + inner)) g3 β3
    dx    = lin zout W_out b_out

  The float words 256.0, ε = f32(1e-5) and 0.0 are kept as the words both programs print; they are never evaluated.
-/
import Idealize.ShloMosaic.PureOps.Ideal
import Idealize.ShloMosaic.Lib.ValueIdx

noncomputable section

open scoped BigOperators

namespace Cert.RowNet

open Idealize.ShloMosaic Idealize.ShloMosaic.ValueIdx

/-- The divisor of a mean over 256 features, as the f32 word both programs divide by. -/
def c256 : EReal := Ideal.ofBits .f32 0x43800000#32
/-- The variance's ε, as the f32 word both programs add. -/
def cEps : EReal := Ideal.ofBits .f32 0x3727C5AC#32
/-- The rectifier's floor, as the f32 zero word both programs take the maximum with. -/
def cZero : EReal := Ideal.ofBits .f32 0x00000000#32

/-- A row through a linear layer: the row times the weight matrix, plus the bias. -/
def lin {K N : ℕ} (v : Fin K → EReal) (W : Fin K → Fin N → EReal) (b : Fin N → EReal) : Fin N → EReal :=
  fun j => (∑ k, v k * W k j) + b j

/-- The rectifier, feature by feature. -/
def relu {N : ℕ} (v : Fin N → EReal) : Fin N → EReal := fun j => max (v j) cZero

/-- The mean of a row's 256 features. -/
def mean (v : Fin 256 → EReal) : EReal := Ideal.div (∑ k, v k) c256

/-- A row with its mean taken off. -/
def centre (v : Fin 256 → EReal) : Fin 256 → EReal := fun j => v j - mean v

/-- The reciprocal standard deviation of a centred row: (mean of squares + ε)^(−1/2). -/
def rstd (d : Fin 256 → EReal) : EReal := Ideal.rsqrt (Ideal.div (∑ k, d k * d k) c256 + cEps)

/-- Layer normalisation of a row with gain `g` and shift `b`. -/
def layerNorm (v g b : Fin 256 → EReal) : Fin 256 → EReal :=
  fun j => centre v j * rstd (centre v) * g j + b j

/-- The layer's parameters, as functions of feature coordinates. -/
structure Weights where
  Winp : Fin 48 → Fin 256 → EReal
  binp : Fin 256 → EReal
  gInp : Fin 256 → EReal
  sInp : Fin 256 → EReal
  W1 : Fin 256 → Fin 256 → EReal
  b1 : Fin 256 → EReal
  g1 : Fin 256 → EReal
  s1 : Fin 256 → EReal
  W2 : Fin 256 → Fin 256 → EReal
  b2 : Fin 256 → EReal
  g2 : Fin 256 → EReal
  s2 : Fin 256 → EReal
  g3 : Fin 256 → EReal
  s3 : Fin 256 → EReal
  Wout : Fin 256 → Fin 32 → EReal
  bout : Fin 32 → EReal

/-- The input injection: the normalised linear image of a row of `x`. -/
def xinp (w : Weights) (x : Fin 48 → EReal) : Fin 256 → EReal :=
  layerNorm (lin x w.Winp w.binp) w.gInp w.sInp

/-- The first hidden row: the normalised rectified linear image of a row of `z`. -/
def z1 (w : Weights) (z : Fin 256 → EReal) : Fin 256 → EReal :=
  layerNorm (relu (lin z w.W1 w.b1)) w.g1 w.s1

/-- What the second normalisation is applied to: the injection plus the second linear image, bias included. -/
def preInner (w : Weights) (x : Fin 48 → EReal) (z : Fin 256 → EReal) : Fin 256 → EReal :=
  fun j => xinp w x j + lin (z1 w z) w.W2 w.b2 j

/-- The inner row. -/
def inner (w : Weights) (x : Fin 48 → EReal) (z : Fin 256 → EReal) : Fin 256 → EReal :=
  layerNorm (preInner w x z) w.g2 w.s2

/-- What the last normalisation is applied to: the rectified sum of the first hidden row and the inner row. -/
def preOut (w : Weights) (x : Fin 48 → EReal) (z : Fin 256 → EReal) : Fin 256 → EReal :=
  relu fun j => z1 w z j + inner w x z j

/-- The new hidden row. -/
def zout (w : Weights) (x : Fin 48 → EReal) (z : Fin 256 → EReal) : Fin 256 → EReal :=
  layerNorm (preOut w x z) w.g3 w.s3

/-- The output row: the new hidden row through the last linear layer. -/
def dx (w : Weights) (x : Fin 48 → EReal) (z : Fin 256 → EReal) : Fin 32 → EReal :=
  lin (zout w x z) w.Wout w.bout

/-! ## Arrays as rows -/

/-- A rank-2 array over the extended reals. -/
abbrev Mat (a b : ℕ) : Type := (⟨2, ![a, b]⟩ : Shape).Idx → EReal
/-- A rank-1 array over the extended reals. -/
abbrev Arr (a : ℕ) : Type := (⟨1, ![a]⟩ : Shape).Idx → EReal

/-- Row `r` of a matrix. -/
def row {a b : ℕ} (M : Mat a b) (r : Fin a) : Fin b → EReal := fun k => M (ix2 r k)
/-- A matrix as a function of its two coordinates. -/
def entries {a b : ℕ} (M : Mat a b) : Fin a → Fin b → EReal := fun i j => M (ix2 i j)
/-- A rank-1 array as a function of its coordinate. -/
def coords {a : ℕ} (v : Arr a) : Fin a → EReal := fun j => v (ix1 j)

/-- The parameters read off the eighteen argument arrays' sixteen weight arrays. -/
def weights (Winp : Mat 48 256) (binp gInp sInp : Arr 256) (W1 : Mat 256 256) (b1 g1 s1 : Arr 256)
    (W2 : Mat 256 256) (b2 g2 s2 g3 s3 : Arr 256) (Wout : Mat 256 32) (bout : Arr 32) : Weights where
  Winp := entries Winp
  binp := coords binp
  gInp := coords gInp
  sInp := coords sInp
  W1 := entries W1
  b1 := coords b1
  g1 := coords g1
  s1 := coords s1
  W2 := entries W2
  b2 := coords b2
  g2 := coords g2
  s2 := coords s2
  g3 := coords g3
  s3 := coords s3
  Wout := entries Wout
  bout := coords bout

/-- The new hidden array: `zout` row by row. -/
def Zout (w : Weights) (x : Mat 262144 48) (z : Mat 262144 256) : Mat 262144 256 :=
  fun i => zout w (row x ⟨(i 0).val, (i 0).isLt⟩) (row z ⟨(i 0).val, (i 0).isLt⟩) ⟨(i 1).val, (i 1).isLt⟩

/-- The output array before its last reshape: `dx` row by row. -/
def Dx (w : Weights) (x : Mat 262144 48) (z : Mat 262144 256) : Mat 262144 32 :=
  fun i => dx w (row x ⟨(i 0).val, (i 0).isLt⟩) (row z ⟨(i 0).val, (i 0).isLt⟩) ⟨(i 1).val, (i 1).isLt⟩

theorem Zout_ix2 (w : Weights) (x : Mat 262144 48) (z : Mat 262144 256) (r : Fin 262144) (j : Fin 256) :
    Zout w x z (ix2 r j) = zout w (row x r) (row z r) j := rfl

theorem Dx_ix2 (w : Weights) (x : Mat 262144 48) (z : Mat 262144 256) (r : Fin 262144) (j : Fin 32) :
    Dx w x z (ix2 r j) = dx w (row x r) (row z r) j := rfl

end Cert.RowNet

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.LibMatmulEntry.lean ====
/-
  A plain matrix product read at an entry.

  For a product of a rank-2 left operand [a, K] and a rank-2 right operand [K, N] that contracts the left operand's
  columns against the right operand's rows, into a zero accumulator, entry (p, j) of the result is the sum over
  k < K of the left operand's (p, k) times the right operand's (k, j). The dimension record's own coordinate
  facts (which operand coordinate each output and contraction coordinate lands on) come in as hypotheses, so the
  statement serves any record of this layout; the contraction index, a one-axis index, is re-indexed by its one
  coordinate.
-/
import Idealize.ShloMosaic.Lib.ValueIdx
import Idealize.ShloMosaic.PureOps.Ideal.Laws

noncomputable section

open scoped BigOperators

namespace Idealize.ShloMosaic.MatmulEntry

open Idealize.ShloMosaic Idealize.ShloMosaic.ValueIdx

/-- Entry (p, j) of `x · W` accumulated from zero is `∑ k, x (p, k) · W (k, j)`, for any dimension record `D` whose
    operand indices are (output row, contraction) on the left and (contraction, output column) on the right. -/
theorem matmul_zero_ix2 {a K N : ℕ} {φ₁ φ₂ : FTy}
    (D : DotDims ⟨2, ![a, K]⟩ ⟨2, ![K, N]⟩ ⟨2, ![a, N]⟩) (hr : D.contr.rank = 1) (hs : D.contr.size ⟨0, by omega⟩ = K)
    (l0 : ∀ (i : (⟨2, ![a, N]⟩ : Shape).Idx) (q : D.contr.Idx), (D.lhsIdx i q 0).val = (i 0).val)
    (l1 : ∀ (i : (⟨2, ![a, N]⟩ : Shape).Idx) (q : D.contr.Idx), (D.lhsIdx i q 1).val = (q ⟨0, by omega⟩).val)
    (r0 : ∀ (i : (⟨2, ![a, N]⟩ : Shape).Idx) (q : D.contr.Idx), (D.rhsIdx i q 0).val = (q ⟨0, by omega⟩).val)
    (r1 : ∀ (i : (⟨2, ![a, N]⟩ : Shape).Idx) (q : D.contr.Idx), (D.rhsIdx i q 1).val = (i 1).val)
    (prec : Option ContractPrecision) (x : FVec Ideal ⟨2, ![a, K]⟩ φ₁) (W : FVec Ideal ⟨2, ![K, N]⟩ φ₂)
    (p : Fin a) (j : Fin N) :
    FloatOps.matmul D prec x W (constant ⟨2, ![a, N]⟩ .f32 0x00000000#32) (ix2 p j)
      = ∑ k : Fin K, x (ix2 p k) * W (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun c => Fin.ext (by
    match c with
    | ⟨0, _⟩ => exact l0 _ _
    | ⟨1, _⟩ => exact (l1 _ _).trans hk)
  have er : D.rhsIdx (ix2 p j) ((contrEquiv1 D K hr hs).symm k) = ix2 k j := funext fun c => Fin.ext (by
    match c with
    | ⟨0, _⟩ => exact (r0 _ _).trans hk
    | ⟨1, _⟩ => exact r1 _ _)
  rw [el, er]

end Idealize.ShloMosaic.MatmulEntry

end
-- ==== Proof.BlockOps.lean ====
/-
  The kernel's vector operations on one block of 2048 rows, read at an entry.

  The body's arithmetic is built from a few vector-level pieces, each repeated: a matrix product into a zero
  accumulator with bf16-rounded operands, a bias row added to every row, the rectifier, and the layer normalisation
  written out as a row mean kept as a column, the centred block, the reciprocal standard deviation kept as a
  column, and the affine step. Each piece is named here by exactly the term the body prints, and read at the
  entry (p, j) of the block: it depends on row p of its operands only, and is the row-level function of RowSpec there.
-/
import proofs.«169053_j15496242004634_1_alg».proof.Proof.Gen.KernelIdeal.Skeleton
import proofs.«169053_j15496242004634_1_alg».proof.Proof.RowSpec
import proofs.«169053_j15496242004634_1_alg».proof.Proof.LibKeepdims
import proofs.«169053_j15496242004634_1_alg».proof.Proof.LibMatmulEntry
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.RowNet

/-! ## The three matrix products

Each product contracts the left operand's columns against the right operand's rows. The coordinate facts of the
three dimension records say so: an output entry's row is the left operand's row, its column the right operand's
column, and the contraction coordinate is the left operand's column and the right operand's row. -/

section InputProduct
/-! The block of `x` (48 features) times the input weights [48, 256]. -/

theorem inLhsRow (i : S2048x256.Idx) (q : dot_S2048x48_S48x256_S2048x256_1_0_0_1_n_n.contr.Idx) :
    (dot_S2048x48_S48x256_S2048x256_1_0_0_1_n_n.lhsIdx i q 0).val = (i 0).val := by
  unfold DotDims.lhsIdx
  rw [dif_neg (show ¬(0 : Fin S2048x48.rank) ∈ dot_S2048x48_S48x256_S2048x256_1_0_0_1_n_n.lhsBatch by decide),
    dif_pos (show (0 : Fin S2048x48.rank) ∈ dot_S2048x48_S48x256_S2048x256_1_0_0_1_n_n.lhsNonContracting by decide)]
  rfl

theorem inLhsCol (i : S2048x256.Idx) (q : dot_S2048x48_S48x256_S2048x256_1_0_0_1_n_n.contr.Idx) :
    (dot_S2048x48_S48x256_S2048x256_1_0_0_1_n_n.lhsIdx i q 1).val = (q ⟨0, by decide⟩).val :=
  dot_S2048x48_S48x256_S2048x256_1_0_0_1_n_n.lhsIdx_val_of_single rfl i q

theorem inRhsRow (i : S2048x256.Idx) (q : dot_S2048x48_S48x256_S2048x256_1_0_0_1_n_n.contr.Idx) :
    (dot_S2048x48_S48x256_S2048x256_1_0_0_1_n_n.rhsIdx i q 0).val = (q ⟨0, by decide⟩).val :=
  dot_S2048x48_S48x256_S2048x256_1_0_0_1_n_n.rhsIdx_val_of_single rfl i q

theorem inRhsCol (i : S2048x256.Idx) (q : dot_S2048x48_S48x256_S2048x256_1_0_0_1_n_n.contr.Idx) :
    (dot_S2048x48_S48x256_S2048x256_1_0_0_1_n_n.rhsIdx i q 1).val = (i 1).val := by
  unfold DotDims.rhsIdx
  rw [dif_neg (show ¬(1 : Fin S48x256.rank) ∈ dot_S2048x48_S48x256_S2048x256_1_0_0_1_n_n.rhsBatch by decide),
    dif_pos (show (1 : Fin S48x256.rank) ∈ dot_S2048x48_S48x256_S2048x256_1_0_0_1_n_n.rhsNonContracting by decide)]
  rfl

/-- The input product as the body prints it. -/
def mmIn (x : FVec Ideal S2048x48 .f32) (W : FVec Ideal S48x256 .f32) : FVec Ideal S2048x256 .f32 :=
  matmul dot_S2048x48_S48x256_S2048x256_1_0_0_1_n_n none (truncf .bf16 x bitsLt_bf16_f32) (truncf .bf16 W bitsLt_bf16_f32)
    (constant S2048x256 .f32 0x00000000#32)

/-- Rounding to bf16 is the identity on the extended reals, so an entry is row times column. -/
theorem mmIn_apply (x : FVec Ideal S2048x48 .f32) (W : FVec Ideal S48x256 .f32) (p : Fin 2048) (j : Fin 256) :
    mmIn x W (ix2 p j) = ∑ k : Fin 48, x (ix2 p k) * W (ix2 k j) :=
  MatmulEntry.matmul_zero_ix2 dot_S2048x48_S48x256_S2048x256_1_0_0_1_n_n rfl rfl inLhsRow inLhsCol inRhsRow inRhsCol none
    (truncf .bf16 x bitsLt_bf16_f32) (truncf .bf16 W bitsLt_bf16_f32) p j

end InputProduct

section HiddenProduct
/-! A block of 256-feature rows times a square weight matrix [256, 256] (used twice). -/

theorem hidLhsRow (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem hidLhsCol (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

theorem hidRhsRow (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

theorem hidRhsCol (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- A hidden product as the body prints it. -/
def mmHid (x : FVec Ideal S2048x256 .f32) (W : FVec Ideal S256x256 .f32) : FVec Ideal S2048x256 .f32 :=
  matmul dot_S2048x256_S256x256_S2048x256_1_0_0_1_n_n none (truncf .bf16 x bitsLt_bf16_f32) (truncf .bf16 W bitsLt_bf16_f32)
    (constant S2048x256 .f32 0x00000000#32)

theorem mmHid_apply (x : FVec Ideal S2048x256 .f32) (W : FVec Ideal S256x256 .f32) (p : Fin 2048) (j : Fin 256) :
    mmHid x W (ix2 p j) = ∑ k : Fin 256, x (ix2 p k) * W (ix2 k j) :=
  MatmulEntry.matmul_zero_ix2 dot_S2048x256_S256x256_S2048x256_1_0_0_1_n_n rfl rfl hidLhsRow hidLhsCol hidRhsRow hidRhsCol none
    (truncf .bf16 x bitsLt_bf16_f32) (truncf .bf16 W bitsLt_bf16_f32) p j

end HiddenProduct

section OutputProduct
/-! A block of 256-feature rows times the output weights [256, 32]. -/

theorem outLhsRow (i : S2048x32.Idx) (q : dot_S2048x256_S256x32_S2048x32_1_0_0_1_n_n.contr.Idx) :
    (dot_S2048x256_S256x32_S2048x32_1_0_0_1_n_n.lhsIdx i q 0).val = (i 0).val := by
  unfold DotDims.lhsIdx
  rw [dif_neg (show ¬(0 : Fin S2048x256.rank) ∈ dot_S2048x256_S256x32_S2048x32_1_0_0_1_n_n.lhsBatch by decide),
    dif_pos (show (0 : Fin S2048x256.rank) ∈ dot_S2048x256_S256x32_S2048x32_1_0_0_1_n_n.lhsNonContracting by decide)]
  rfl

theorem outLhsCol (i : S2048x32.Idx) (q : dot_S2048x256_S256x32_S2048x32_1_0_0_1_n_n.contr.Idx) :
    (dot_S2048x256_S256x32_S2048x32_1_0_0_1_n_n.lhsIdx i q 1).val = (q ⟨0, by decide⟩).val :=
  dot_S2048x256_S256x32_S2048x32_1_0_0_1_n_n.lhsIdx_val_of_single rfl i q

theorem outRhsRow (i : S2048x32.Idx) (q : dot_S2048x256_S256x32_S2048x32_1_0_0_1_n_n.contr.Idx) :
    (dot_S2048x256_S256x32_S2048x32_1_0_0_1_n_n.rhsIdx i q 0).val = (q ⟨0, by decide⟩).val :=
  dot_S2048x256_S256x32_S2048x32_1_0_0_1_n_n.rhsIdx_val_of_single rfl i q

theorem outRhsCol (i : S2048x32.Idx) (q : dot_S2048x256_S256x32_S2048x32_1_0_0_1_n_n.contr.Idx) :
    (dot_S2048x256_S256x32_S2048x32_1_0_0_1_n_n.rhsIdx i q 1).val = (i 1).val := by
  unfold DotDims.rhsIdx
  rw [dif_neg (show ¬(1 : Fin S256x32.rank) ∈ dot_S2048x256_S256x32_S2048x32_1_0_0_1_n_n.rhsBatch by decide),
    dif_pos (show (1 : Fin S256x32.rank) ∈ dot_S2048x256_S256x32_S2048x32_1_0_0_1_n_n.rhsNonContracting by decide)]
  rfl

/-- The output product as the body prints it. -/
def mmOut (x : FVec Ideal S2048x256 .f32) (W : FVec Ideal S256x32 .f32) : FVec Ideal S2048x32 .f32 :=
  matmul dot_S2048x256_S256x32_S2048x32_1_0_0_1_n_n none (truncf .bf16 x bitsLt_bf16_f32) (truncf .bf16 W bitsLt_bf16_f32)
    (constant S2048x32 .f32 0x00000000#32)

theorem mmOut_apply (x : FVec Ideal S2048x256 .f32) (W : FVec Ideal S256x32 .f32) (p : Fin 2048) (j : Fin 32) :
    mmOut x W (ix2 p j) = ∑ k : Fin 256, x (ix2 p k) * W (ix2 k j) :=
  MatmulEntry.matmul_zero_ix2 dot_S2048x256_S256x32_S2048x32_1_0_0_1_n_n rfl rfl outLhsRow outLhsCol outRhsRow outRhsCol none
    (truncf .bf16 x bitsLt_bf16_f32) (truncf .bf16 W bitsLt_bf16_f32) p j

end OutputProduct

/-! ## A parameter row, a bias, the rectifier -/

/-- A [1, 256] parameter block as the body re-casts it before use (a cast to its own shape). -/
def rowVec (g : FVec Ideal S1x256 .f32) : FVec Ideal S1x256 .f32 := shapeCast S1x256 g shapeCasts_S1x256_S1x256

theorem rowVec_eq (g : FVec Ideal S1x256 .f32) : rowVec g = g := shapeCast_self g _

/-- The same for the [1, 32] output bias. -/
def rowVecOut (g : FVec Ideal S1x32 .f32) : FVec Ideal S1x32 .f32 := shapeCast S1x32 g shapeCasts_S1x32_S1x32

theorem rowVecOut_eq (g : FVec Ideal S1x32 .f32) : rowVecOut g = g := shapeCast_self g _

/-- A bias row added to every row of a block. -/
def biased (y : FVec Ideal S2048x256 .f32) (b : FVec Ideal S1x256 .f32) : FVec Ideal S2048x256 .f32 :=
  addf y (broadcastTo S2048x256 (rowVec b) broadcasts_S1x256_S2048x256)

theorem biased_apply (y : FVec Ideal S2048x256 .f32) (b : FVec Ideal S1x256 .f32) (p : Fin 2048) (j : Fin 256) :
    biased y b (ix2 p j) = y (ix2 p j) + b (ix2 (0 : Fin 1) j) := by
  unfold biased
  rw [rowVec_eq]
  show y (ix2 p j) + broadcastTo S2048x256 b broadcasts_S1x256_S2048x256 (ix2 p j) = _
  rw [broadcastTo_1b_ab_apply]

/-- The same for the 32-feature output. -/
def biasedOut (y : FVec Ideal S2048x32 .f32) (b : FVec Ideal S1x32 .f32) : FVec Ideal S2048x32 .f32 :=
  addf y (broadcastTo S2048x32 (rowVecOut b) broadcasts_S1x32_S2048x32)

theorem biasedOut_apply (y : FVec Ideal S2048x32 .f32) (b : FVec Ideal S1x32 .f32) (p : Fin 2048) (j : Fin 32) :
    biasedOut y b (ix2 p j) = y (ix2 p j) + b (ix2 (0 : Fin 1) j) := by
  unfold biasedOut
  rw [rowVecOut_eq]
  show y (ix2 p j) + broadcastTo S2048x32 b broadcasts_S1x32_S2048x32 (ix2 p j) = _
  rw [broadcastTo_1b_ab_apply]

/-- The rectifier on a block: the maximum with the zero splat. -/
def rect (v : FVec Ideal S2048x256 .f32) : FVec Ideal S2048x256 .f32 :=
  maximumf v (broadcast S2048x256 (Scalar.ofBits .f32 0x00000000#32))

theorem rect_apply (v : FVec Ideal S2048x256 .f32) (p : Fin 2048) (j : Fin 256) :
    rect v (ix2 p j) = max (v (ix2 p j)) cZero := rfl

/-! ## Layer normalisation, piece by piece -/

/-- A lane sum over the 256 features of each row, read at row p. -/
theorem rowSum_apply (v : FVec Ideal S2048x256 .f32) (p : Fin 2048) :
    multiReduction .add [1] S2048 v 0x00000000#32 reduces_S2048x256_S2048 (.inl rfl) rfl (ix1 p)
      = ∑ k : Fin 256, v (ix2 p k) := by
  refine (Ideal.multiReduction_add_single v 0x00000000#32 reduces_S2048x256_S2048 (.inl rfl) rfl (ix1 p)).trans ?_
  refine Finset.sum_congr rfl fun k _ => ?_
  exact congrArg v (funext fun c => Fin.ext (by match c with | ⟨0, _⟩ => rfl | ⟨1, _⟩ => rfl))

/-- The mean of each row, kept as a [2048, 1] column: the lane sum, re-cast, over 256. -/
def meanCol (v : FVec Ideal S2048x256 .f32) : FVec Ideal S2048x1 .f32 :=
  divf (shapeCast S2048x1 (multiReduction .add [1] S2048 v 0x00000000#32 reduces_S2048x256_S2048 (.inl rfl) rfl) shapeCasts_S2048_S2048x1)
    (broadcast S2048x1 (Scalar.ofBits .f32 0x43800000#32))

theorem meanCol_apply (v : FVec Ideal S2048x256 .f32) (p : Fin 2048) (u : Fin 1) :
    meanCol v (ix2 p u) = mean (row v p) := by
  unfold meanCol
  show Ideal.div (shapeCast S2048x1 (multiReduction .add [1] S2048 v 0x00000000#32 reduces_S2048x256_S2048 (.inl rfl) rfl) shapeCasts_S2048_S2048x1 (ix2 p u)) c256 = _
  rw [Keepdims.shapeCast_a_a1_apply, rowSum_apply]
  rfl

/-- A block with each row's mean taken off. -/
def centred (v : FVec Ideal S2048x256 .f32) : FVec Ideal S2048x256 .f32 :=
  subf v (broadcastTo S2048x256 (meanCol v) broadcasts_S2048x1_S2048x256)

theorem centred_apply (v : FVec Ideal S2048x256 .f32) (p : Fin 2048) (j : Fin 256) :
    centred v (ix2 p j) = centre (row v p) j := by
  unfold centred
  show v (ix2 p j) - broadcastTo S2048x256 (meanCol v) broadcasts_S2048x1_S2048x256 (ix2 p j) = _
  rw [Keepdims.broadcastTo_a1_ab_apply, meanCol_apply]
  rfl

/-- Row p of the centred block is the centred row p. -/
theorem row_centred (v : FVec Ideal S2048x256 .f32) (p : Fin 2048) : row (centred v) p = centre (row v p) :=
  funext fun j => centred_apply v p j

/-- The reciprocal standard deviation of each (centred) row, kept as a column. -/
def rstdCol (d : FVec Ideal S2048x256 .f32) : FVec Ideal S2048x1 .f32 :=
  rsqrt (addf
    (divf (shapeCast S2048x1 (multiReduction .add [1] S2048 (mulf d d) 0x00000000#32 reduces_S2048x256_S2048 (.inl rfl) rfl) shapeCasts_S2048_S2048x1)
      (broadcast S2048x1 (Scalar.ofBits .f32 0x43800000#32)))
    (broadcast S2048x1 (Scalar.ofBits .f32 0x3727C5AC#32)))

theorem rstdCol_apply (d : FVec Ideal S2048x256 .f32) (p : Fin 2048) (u : Fin 1) :
    rstdCol d (ix2 p u) = rstd (row d p) := by
  unfold rstdCol
  show Ideal.rsqrt (Ideal.div (shapeCast S2048x1 (multiReduction .add [1] S2048 (mulf d d) 0x00000000#32 reduces_S2048x256_S2048 (.inl rfl) rfl) shapeCasts_S2048_S2048x1 (ix2 p u)) c256 + cEps) = _
  rw [Keepdims.shapeCast_a_a1_apply, rowSum_apply]
  rfl

/-- The affine step: a centred block times its column of reciprocal deviations, times the gain row, plus the shift row. -/
def affine (d : FVec Ideal S2048x256 .f32) (r : FVec Ideal S2048x1 .f32) (g b : FVec Ideal S1x256 .f32) : FVec Ideal S2048x256 .f32 :=
  addf (mulf (mulf d (broadcastTo S2048x256 r broadcasts_S2048x1_S2048x256)) (broadcastTo S2048x256 g broadcasts_S1x256_S2048x256))
    (broadcastTo S2048x256 b broadcasts_S1x256_S2048x256)

theorem affine_apply (d : FVec Ideal S2048x256 .f32) (r : FVec Ideal S2048x1 .f32) (g b : FVec Ideal S1x256 .f32) (p : Fin 2048) (j : Fin 256) :
    affine d r g b (ix2 p j) = d (ix2 p j) * r (ix2 p (0 : Fin 1)) * g (ix2 (0 : Fin 1) j) + b (ix2 (0 : Fin 1) j) := by
  unfold affine
  show d (ix2 p j) * broadcastTo S2048x256 r broadcasts_S2048x1_S2048x256 (ix2 p j) * broadcastTo S2048x256 g broadcasts_S1x256_S2048x256 (ix2 p j)
    + broadcastTo S2048x256 b broadcasts_S1x256_S2048x256 (ix2 p j) = _
  rw [Keepdims.broadcastTo_a1_ab_apply, broadcastTo_1b_ab_apply, broadcastTo_1b_ab_apply]

/-- Layer normalisation of a block with gain and shift rows. -/
def normed (v : FVec Ideal S2048x256 .f32) (g b : FVec Ideal S1x256 .f32) : FVec Ideal S2048x256 .f32 :=
  affine (centred v) (rstdCol (centred v)) g b

/-- Row p of the normalised block is the normalised row p. -/
theorem row_normed (v : FVec Ideal S2048x256 .f32) (g b : FVec Ideal S1x256 .f32) (p : Fin 2048) :
    row (normed v g b) p = layerNorm (row v p) (row g 0) (row b 0) := by
  funext j
  show normed v g b (ix2 p j) = _
  unfold normed
  rw [affine_apply, centred_apply, rstdCol_apply, row_centred]
  rfl

end Cert.KernelIdeal.Block

end
-- ==== Proof.BlockNet.lean ====
/-
  The body's stores, row by row.

  The body's two stored values are compositions of the pieces of BlockOps. Folding each payload into those pieces is
  definitional; reading the result row by row then gives the row network of RowSpec, with the parameters read
  off the kernel's parameter blocks (a weight matrix as it is, a [1, n] bias or gain block at its one row):

    row p of the block stored to the hidden output  = zout w (row p of the x block) (row p of the z block)
    row p of the block stored to the 32-wide output = dx   w (row p of the x block) (row p of the z block).
-/
import proofs.«169053_j15496242004634_1_alg».proof.Proof.BlockOps

noncomputable section

open scoped BigOperators

namespace Cert.KernelIdeal.Block

open Cert.KernelIdeal Cert.KernelIdeal.Gen Idealize.ShloMosaic Idealize.ShloMosaic.ValueIdx Cert.RowNet

/-! ## The payloads are compositions of the named pieces -/

/-- The input injection: normalised (product with the input weights, plus its bias). -/
theorem xinp_fold (x : FVec Ideal S2048x48 .f32) (W : FVec Ideal S48x256 .f32) (b g s : FVec Ideal S1x256 .f32) :
    k0_pay3 x W b g s = normed (biased (mmIn x W) b) (rowVec g) (rowVec s) := rfl

/-- The first hidden product. -/
theorem lin1_fold (z : FVec Ideal S2048x256 .f32) (W : FVec Ideal S256x256 .f32) : k0_pay4 z W = mmHid z W := rfl

/-- The first hidden block: normalised rectified (product plus bias). -/
theorem z1_fold (y : FVec Ideal S2048x256 .f32) (b g s : FVec Ideal S1x256 .f32) :
    k0_pay5 y b g s = normed (rect (biased y b)) (rowVec g) (rowVec s) := rfl

/-- What the second normalisation is applied to: the injection plus (second product plus bias). -/
theorem preInner_fold (X y : FVec Ideal S2048x256 .f32) (b g s : FVec Ideal S1x256 .f32) (W : FVec Ideal S256x256 .f32)
    (b2 : FVec Ideal S1x256 .f32) :
    k0_pay6 X y b g s W b2 = addf X (biased (mmHid (k0_pay5 y b g s) W) b2) := rfl

theorem gain2_fold (g : FVec Ideal S1x256 .f32) : k0_pay7 g = rowVec g := rfl
theorem gain3_fold (g : FVec Ideal S1x256 .f32) : k0_pay8 g = rowVec g := rfl
theorem shift3_fold (s : FVec Ideal S1x256 .f32) : k0_pay9 s = rowVec s := rfl

/-- The centred input of the last normalisation: centred rectified (first hidden block plus the inner block). -/
theorem centredOut_fold (Z P : FVec Ideal S2048x256 .f32) (g' s : FVec Ideal S1x256 .f32) :
    k0_pay10 Z P g' s = centred (rect (addf Z (normed P g' (rowVec s)))) := rfl

/-- Its column of reciprocal deviations. -/
theorem rstdOut_fold (Z P : FVec Ideal S2048x256 .f32) (g' s : FVec Ideal S1x256 .f32) :
    k0_pay11 Z P g' s = rstdCol (k0_pay10 Z P g' s) := rfl

/-- The hidden output's stored block: the affine step of the last normalisation. -/
theorem zout_fold (g' s' : FVec Ideal S1x256 .f32) (D : FVec Ideal S2048x256 .f32) (R : FVec Ideal S2048x1 .f32) :
    k0_pay1 g' s' D R = affine D R g' s' := rfl

/-- The 32-wide output's stored block: the output product of the hidden output, plus its bias. -/
theorem dx_fold (g' s' : FVec Ideal S1x256 .f32) (D : FVec Ideal S2048x256 .f32) (R : FVec Ideal S2048x1 .f32)
    (W : FVec Ideal S256x32 .f32) (b : FVec Ideal S1x32 .f32) :
    k0_pay2 g' s' D R W b = biasedOut (mmOut (k0_pay1 g' s' D R) W) b := rfl

/-! ## Rows of the pieces -/

theorem row_addf (a b : FVec Ideal S2048x256 .f32) (p : Fin 2048) :
    row (addf a b) p = fun j => row a p j + row b p j := rfl

theorem row_rect (v : FVec Ideal S2048x256 .f32) (p : Fin 2048) : row (rect v) p = relu (row v p) := rfl

theorem row_linIn (x : FVec Ideal S2048x48 .f32) (W : FVec Ideal S48x256 .f32) (b : FVec Ideal S1x256 .f32) (p : Fin 2048) :
    row (biased (mmIn x W) b) p = lin (row x p) (entries W) (row b 0) := by
  funext j
  show biased (mmIn x W) b (ix2 p j) = _
  rw [biased_apply, mmIn_apply]
  rfl

theorem row_linHid (x : FVec Ideal S2048x256 .f32) (W : FVec Ideal S256x256 .f32) (b : FVec Ideal S1x256 .f32) (p : Fin 2048) :
    row (biased (mmHid x W) b) p = lin (row x p) (entries W) (row b 0) := by
  funext j
  show biased (mmHid x W) b (ix2 p j) = _
  rw [biased_apply, mmHid_apply]
  rfl

theorem row_linOut (x : FVec Ideal S2048x256 .f32) (W : FVec Ideal S256x32 .f32) (b : FVec Ideal S1x32 .f32) (p : Fin 2048) :
    row (biasedOut (mmOut x W) b) p = lin (row x p) (entries W) (row b 0) := by
  funext j
  show biasedOut (mmOut x W) b (ix2 p j) = _
  rw [biasedOut_apply, mmOut_apply]
  rfl

/-! ## The parameters as the kernel's blocks hold them -/

/-- The layer's parameters read off the kernel's sixteen parameter blocks: a matrix block entry by entry, a
    [1, n] block at its one row. -/
def blockWeights (Winp : FVec Ideal S48x256 .f32) (binp gInp sInp : FVec Ideal S1x256 .f32)
    (W1 : FVec Ideal S256x256 .f32) (b1 g1 s1 : FVec Ideal S1x256 .f32)
    (W2 : FVec Ideal S256x256 .f32) (b2 g2 s2 g3 s3 : FVec Ideal S1x256 .f32)
    (Wout : FVec Ideal S256x32 .f32) (bout : FVec Ideal S1x32 .f32) : Weights where
  Winp := entries Winp
  binp := row binp 0
  gInp := row gInp 0
  sInp := row sInp 0
  W1 := entries W1
  b1 := row b1 0
  g1 := row g1 0
  s1 := row s1 0
  W2 := entries W2
  b2 := row b2 0
  g2 := row g2 0
  s2 := row s2 0
  g3 := row g3 0
  s3 := row s3 0
  Wout := entries Wout
  bout := row bout 0

section Rows

variable (x0 : FVec Ideal S2048x48 .f32) (x1 : FVec Ideal S2048x256 .f32)
  (x2 : FVec Ideal S48x256 .f32) (x3 x4 x5 : FVec Ideal S1x256 .f32)
  (x6 : FVec Ideal S256x256 .f32) (x7 x8 x9 : FVec Ideal S1x256 .f32)
  (x10 : FVec Ideal S256x256 .f32) (x11 x12 x13 x14 x15 : FVec Ideal S1x256 .f32)
  (x16 : FVec Ideal S256x32 .f32) (x17 : FVec Ideal S1x32 .f32)

local notation "w" => blockWeights x2 x3 x4 x5 x6 x7 x8 x9 x10 x11 x12 x13 x14 x15 x16 x17

/-- The injection block. -/
def xinpBlk : FVec Ideal S2048x256 .f32 := k0_pay3 x0 x2 x3 x4 x5
/-- The first hidden block. -/
def z1Blk : FVec Ideal S2048x256 .f32 := k0_pay5 (k0_pay4 x1 x6) x7 x8 x9
/-- The block the second normalisation is applied to. -/
def preInnerBlk : FVec Ideal S2048x256 .f32 := k0_pay6 (k0_pay3 x0 x2 x3 x4 x5) (k0_pay4 x1 x6) x7 x8 x9 x10 x11
/-- The centred block the last normalisation scales. -/
def centredOutBlk : FVec Ideal S2048x256 .f32 :=
  k0_pay10 (k0_pay5 (k0_pay4 x1 x6) x7 x8 x9) (k0_pay6 (k0_pay3 x0 x2 x3 x4 x5) (k0_pay4 x1 x6) x7 x8 x9 x10 x11) (k0_pay7 x12) x13
/-- Its column of reciprocal deviations. -/
def rstdOutBlk : FVec Ideal S2048x1 .f32 :=
  k0_pay11 (k0_pay5 (k0_pay4 x1 x6) x7 x8 x9) (k0_pay6 (k0_pay3 x0 x2 x3 x4 x5) (k0_pay4 x1 x6) x7 x8 x9 x10 x11) (k0_pay7 x12) x13
/-- The block stored to the hidden output. -/
def zoutBlk : FVec Ideal S2048x256 .f32 :=
  k0_pay1 (k0_pay8 x14) (k0_pay9 x15) (centredOutBlk x0 x1 x2 x3 x4 x5 x6 x7 x8 x9 x10 x11 x12 x13)
    (rstdOutBlk x0 x1 x2 x3 x4 x5 x6 x7 x8 x9 x10 x11 x12 x13)
/-- The block stored to the 32-wide output. -/
def dxBlk : FVec Ideal S2048x32 .f32 :=
  k0_pay2 (k0_pay8 x14) (k0_pay9 x15) (centredOutBlk x0 x1 x2 x3 x4 x5 x6 x7 x8 x9 x10 x11 x12 x13)
    (rstdOutBlk x0 x1 x2 x3 x4 x5 x6 x7 x8 x9 x10 x11 x12 x13) x16 x17

theorem row_xinpBlk (p : Fin 2048) : row (xinpBlk x0 x2 x3 x4 x5) p = xinp w (row x0 p) := by
  unfold xinpBlk
  rw [xinp_fold, row_normed, row_linIn, rowVec_eq, rowVec_eq]
  rfl

theorem row_z1Blk (p : Fin 2048) : row (z1Blk x1 x6 x7 x8 x9) p = z1 w (row x1 p) := by
  unfold z1Blk
  rw [z1_fold, lin1_fold, row_normed, row_rect, row_linHid, rowVec_eq, rowVec_eq]
  rfl

theorem row_preInnerBlk (p : Fin 2048) :
    row (preInnerBlk x0 x1 x2 x3 x4 x5 x6 x7 x8 x9 x10 x11) p = preInner w (row x0 p) (row x1 p) := by
  have hx := row_xinpBlk x0 x2 x3 x4 x5 x6 x7 x8 x9 x10 x11 x12 x13 x14 x15 x16 x17 p
  have hz := row_z1Blk x1 x2 x3 x4 x5 x6 x7 x8 x9 x10 x11 x12 x13 x14 x15 x16 x17 p
  unfold xinpBlk at hx
  unfold z1Blk at hz
  unfold preInnerBlk
  rw [preInner_fold, row_addf, row_linHid, hx, hz]
  rfl

theorem row_centredOutBlk (p : Fin 2048) :
    row (centredOutBlk x0 x1 x2 x3 x4 x5 x6 x7 x8 x9 x10 x11 x12 x13) p = centre (preOut w (row x0 p) (row x1 p)) := by
  have hz := row_z1Blk x1 x2 x3 x4 x5 x6 x7 x8 x9 x10 x11 x12 x13 x14 x15 x16 x17 p
  have hp := row_preInnerBlk x0 x1 x2 x3 x4 x5 x6 x7 x8 x9 x10 x11 x12 x13 x14 x15 x16 x17 p
  unfold z1Blk at hz
  unfold preInnerBlk at hp
  unfold centredOutBlk
  rw [centredOut_fold, row_centred, row_rect, row_addf, row_normed, hz, hp, gain2_fold, rowVec_eq, rowVec_eq]
  rfl

theorem row_zoutBlk (p : Fin 2048) :
    row (zoutBlk x0 x1 x2 x3 x4 x5 x6 x7 x8 x9 x10 x11 x12 x13 x14 x15) p = zout w (row x0 p) (row x1 p) := by
  have hc := row_centredOutBlk x0 x1 x2 x3 x4 x5 x6 x7 x8 x9 x10 x11 x12 x13 x14 x15 x16 x17 p
  funext j
  show zoutBlk x0 x1 x2 x3 x4 x5 x6 x7 x8 x9 x10 x11 x12 x13 x14 x15 (ix2 p j) = _
  unfold zoutBlk
  rw [zout_fold, affine_apply, gain3_fold, shift3_fold, rowVec_eq, rowVec_eq]
  have hr : rstdOutBlk x0 x1 x2 x3 x4 x5 x6 x7 x8 x9 x10 x11 x12 x13 (ix2 p (0 : Fin 1))
      = rstd (centre (preOut w (row x0 p) (row x1 p))) := by
    unfold rstdOutBlk
    rw [rstdOut_fold, rstdCol_apply]
    exact congrArg rstd hc
  rw [hr]
  have hd : centredOutBlk x0 x1 x2 x3 x4 x5 x6 x7 x8 x9 x10 x11 x12 x13 (ix2 p j)
      = centre (preOut w (row x0 p) (row x1 p)) j := congrFun hc j
  rw [hd]
  rfl

theorem row_dxBlk (p : Fin 2048) :
    row (dxBlk x0 x1 x2 x3 x4 x5 x6 x7 x8 x9 x10 x11 x12 x13 x14 x15 x16 x17) p = dx w (row x0 p) (row x1 p) := by
  have hz := row_zoutBlk x0 x1 x2 x3 x4 x5 x6 x7 x8 x9 x10 x11 x12 x13 x14 x15 x16 x17 p
  unfold zoutBlk at hz
  unfold dxBlk
  rw [dx_fold, row_linOut, hz]
  rfl

end Rows

end Cert.KernelIdeal.Block

end
-- ==== Proof.KernelArrays.lean ====
/-
  From blocks to arrays: what the kernel's two output arrays hold after the run.

  At grid point t the kernel stages rows 2048·t … 2048·t + 2047 of x and z and every parameter array whole, and
  writes back rows 2048·t … of its two outputs. So the row network's parameters read off the parameter blocks are
  the parameters read off the argument arrays, row p of a staged block is row 2048·t + p of its array, and the
  block written back at t is block t of the row network applied row by row. The 128 blocks tile the arrays, so the
  hidden output array ends at Zout and the 32-wide output array at Dx; the reshape after the region acts on the latter.
-/
import proofs.«169053_j15496242004634_1_alg».proof.Proof.Gen.KernelIdeal.Frame
import proofs.«169053_j15496242004634_1_alg».proof.Proof.BlockNet
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Idealize.ShloMosaic.ValueIdx Cert.RowNet

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 128 grid points -/

/-- The two data windows and the two output windows move one block of rows per point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The four weight-matrix windows stay at block (0, 0). -/
theorem idx_mats : ∀ t : Fin cfg0.N,
    win0_2.index t (0 : Fin 2) = 0 ∧ win0_2.index t (1 : Fin 2) = 0
    ∧ win0_6.index t (0 : Fin 2) = 0 ∧ win0_6.index t (1 : Fin 2) = 0
    ∧ win0_10.index t (0 : Fin 2) = 0 ∧ win0_10.index t (1 : Fin 2) = 0
    ∧ win0_16.index t (0 : Fin 2) = 0 ∧ win0_16.index t (1 : Fin 2) = 0 :=
  (by decide +kernel : ∀ t : Fin grid0.N, _)

/-- The twelve bias, gain and shift windows stay at block (0, 0). -/
theorem idx_vecs : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_17.index t (0 : Fin 2) = 0 ∧ win0_17.index t (1 : Fin 2) = 0) :=
  (by decide +kernel : ∀ t : Fin grid0.N, _)

/-! ## The argument arrays, and the parameters read off them -/

/-- The argument `x` on core c. -/
abbrev argX (c : Dev nD) : FVec Ideal S262144x48 .f32 := m ((c : Thread nD τ).loc main_arg0)
/-- The argument `z` on core c. -/
abbrev argZ (c : Dev nD) : FVec Ideal S262144x256 .f32 := m ((c : Thread nD τ).loc main_arg1)

/-- The layer's parameters read off the sixteen weight arguments. -/
def params (c : Dev nD) : Weights :=
  weights (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17))

/-! ## What the region finds in the re-laid parameter vectors

Before the region the program re-lays each 256-vector (and the 32-vector) as one row; the region finds the argument's
entries along that row. -/

theorem V_v0 (c : Dev nD) :
    (V m c main_v0 : S1x256.Idx → Ideal .f32) = shapeCast S1x256 (m ((c : Thread nD τ).loc main_arg3)) shapeCasts_S256_S1x256 := by
  show StableHlo.after hostOps0 (fun b => m (c, b)) (Proc.devRef .tc main_v0) = _
  after_results
  rfl

theorem V_v1 (c : Dev nD) :
    (V m c main_v1 : S1x256.Idx → Ideal .f32) = shapeCast S1x256 (m ((c : Thread nD τ).loc main_arg4)) shapeCasts_S256_S1x256 := by
  show StableHlo.after hostOps0 (fun b => m (c, b)) (Proc.devRef .tc main_v1) = _
  after_results
  rfl

theorem V_v2 (c : Dev nD) :
    (V m c main_v2 : S1x256.Idx → Ideal .f32) = shapeCast S1x256 (m ((c : Thread nD τ).loc main_arg5)) shapeCasts_S256_S1x256 := by
  show StableHlo.after hostOps0 (fun b => m (c, b)) (Proc.devRef .tc main_v2) = _
  after_results
  rfl

theorem V_v3 (c : Dev nD) :
    (V m c main_v3 : S1x256.Idx → Ideal .f32) = shapeCast S1x256 (m ((c : Thread nD τ).loc main_arg7)) shapeCasts_S256_S1x256 := by
  show StableHlo.after hostOps0 (fun b => m (c, b)) (Proc.devRef .tc main_v3) = _
  after_results
  rfl

theorem V_v4 (c : Dev nD) :
    (V m c main_v4 : S1x256.Idx → Ideal .f32) = shapeCast S1x256 (m ((c : Thread nD τ).loc main_arg8)) shapeCasts_S256_S1x256 := by
  show StableHlo.after hostOps0 (fun b => m (c, b)) (Proc.devRef .tc main_v4) = _
  after_results
  rfl

theorem V_v5 (c : Dev nD) :
    (V m c main_v5 : S1x256.Idx → Ideal .f32) = shapeCast S1x256 (m ((c : Thread nD τ).loc main_arg9)) shapeCasts_S256_S1x256 := by
  show StableHlo.after hostOps0 (fun b => m (c, b)) (Proc.devRef .tc main_v5) = _
  after_results
  rfl

theorem V_v6 (c : Dev nD) :
    (V m c main_v6 : S1x256.Idx → Ideal .f32) = shapeCast S1x256 (m ((c : Thread nD τ).loc main_arg11)) shapeCasts_S256_S1x256 := by
  show StableHlo.after hostOps0 (fun b => m (c, b)) (Proc.devRef .tc main_v6) = _
  after_results
  rfl

theorem V_v7 (c : Dev nD) :
    (V m c main_v7 : S1x256.Idx → Ideal .f32) = shapeCast S1x256 (m ((c : Thread nD τ).loc main_arg12)) shapeCasts_S256_S1x256 := by
  show StableHlo.after hostOps0 (fun b => m (c, b)) (Proc.devRef .tc main_v7) = _
  after_results
  rfl

theorem V_v8 (c : Dev nD) :
    (V m c main_v8 : S1x256.Idx → Ideal .f32) = shapeCast S1x256 (m ((c : Thread nD τ).loc main_arg13)) shapeCasts_S256_S1x256 := by
  show StableHlo.after hostOps0 (fun b => m (c, b)) (Proc.devRef .tc main_v8) = _
  after_results
  rfl

theorem V_v9 (c : Dev nD) :
    (V m c main_v9 : S1x256.Idx → Ideal .f32) = shapeCast S1x256 (m ((c : Thread nD τ).loc main_arg14)) shapeCasts_S256_S1x256 := by
  show StableHlo.after hostOps0 (fun b => m (c, b)) (Proc.devRef .tc main_v9) = _
  after_results
  rfl

theorem V_v10 (c : Dev nD) :
    (V m c main_v10 : S1x256.Idx → Ideal .f32) = shapeCast S1x256 (m ((c : Thread nD τ).loc main_arg15)) shapeCasts_S256_S1x256 := by
  show StableHlo.after hostOps0 (fun b => m (c, b)) (Proc.devRef .tc main_v10) = _
  after_results
  rfl

theorem V_v11 (c : Dev nD) :
    (V m c main_v11 : S1x32.Idx → Ideal .f32) = shapeCast S1x32 (m ((c : Thread nD τ).loc main_arg17)) shapeCasts_S32_S1x32 := by
  show StableHlo.after hostOps0 (fun b => m (c, b)) (Proc.devRef .tc main_v11) = _
  after_results
  rfl

/-! ## Blocks as rows of the arrays -/

/-- Entry y of the x block at point t is entry (2048·t + y₀, y₁) of x. -/
theorem xblk_apply (c : Dev nD) (t : Fin cfg0.N) (y : S2048x48.Idx) (i : S262144x48.Idx)
    (h0 : (i 0).val = 2048 * t.val + (y 0).val) (h1 : (i 1).val = (y 1).val) :
    (iblk m c 0 t : FVec Ideal S2048x48 .f32) y = argX m c i := by
  obtain ⟨e0, e1, -⟩ := idx_rows t
  unfold iblk
  rw [View.read_apply]
  show V m c main_arg0 _ = (m ((c : Thread nD τ).loc main_arg0)) i
  refine (congrFun (V_main_arg0 m c) _).trans (congrArg (m ((c : Thread nD τ).loc main_arg0)) (funext fun a => Fin.ext ?_))
  match a with
  | ⟨0, _⟩ => show win0_0.index t (0 : Fin 2) * 2048 + 1 * (y 0).val = (i 0).val; rw [e0, h0]; omega
  | ⟨1, _⟩ => show win0_0.index t (1 : Fin 2) * 48 + 1 * (y 1).val = (i 1).val; rw [e1, h1]; omega

/-- Entry y of the z block at point t is entry (2048·t + y₀, y₁) of z. -/
theorem zblk_apply (c : Dev nD) (t : Fin cfg0.N) (y : S2048x256.Idx) (i : S262144x256.Idx)
    (h0 : (i 0).val = 2048 * t.val + (y 0).val) (h1 : (i 1).val = (y 1).val) :
    (iblk m c 1 t : FVec Ideal S2048x256 .f32) y = argZ m c i := by
  obtain ⟨-, -, e0, e1, -⟩ := idx_rows t
  unfold iblk
  rw [View.read_apply]
  show V m c main_arg1 _ = (m ((c : Thread nD τ).loc main_arg1)) i
  refine (congrFun (V_main_arg1 m c) _).trans (congrArg (m ((c : Thread nD τ).loc main_arg1)) (funext fun a => Fin.ext ?_))
  match a with
  | ⟨0, _⟩ => show win0_1.index t (0 : Fin 2) * 2048 + 1 * (y 0).val = (i 0).val; rw [e0, h0]; omega
  | ⟨1, _⟩ => show win0_1.index t (1 : Fin 2) * 256 + 1 * (y 1).val = (i 1).val; rw [e1, h1]; omega

theorem xrow (c : Dev nD) (t : Fin cfg0.N) (p : Fin 2048) (r : Fin 262144) (h : r.val = 2048 * t.val + p.val) :
    row (iblk m c 0 t : FVec Ideal S2048x48 .f32) p = row (argX m c) r :=
  funext fun k => xblk_apply m c t (ix2 p k) (ix2 r k) h rfl

theorem zrow (c : Dev nD) (t : Fin cfg0.N) (p : Fin 2048) (r : Fin 262144) (h : r.val = 2048 * t.val + p.val) :
    row (iblk m c 1 t : FVec Ideal S2048x256 .f32) p = row (argZ m c) r :=
  funext fun k => zblk_apply m c t (ix2 p k) (ix2 r k) h rfl

/-! The four weight matrices are staged whole: each block is its argument. -/

theorem wInp_blk (c : Dev nD) (t : Fin cfg0.N) :
    (iblk m c 2 t : FVec Ideal S48x256 .f32) = (m ((c : Thread nD τ).loc main_arg2)) := by
  obtain ⟨e0, e1, -⟩ := idx_mats t
  funext y
  unfold iblk
  rw [View.read_apply]
  show V m c main_arg2 _ = (m ((c : Thread nD τ).loc main_arg2)) y
  refine (congrFun (V_main_arg2 m c) _).trans (congrArg (m ((c : Thread nD τ).loc main_arg2)) (funext fun a => Fin.ext ?_))
  match a with
  | ⟨0, _⟩ => show win0_2.index t (0 : Fin 2) * 48 + 1 * (y 0).val = (y 0).val; rw [e0]; omega
  | ⟨1, _⟩ => show win0_2.index t (1 : Fin 2) * 256 + 1 * (y 1).val = (y 1).val; rw [e1]; omega

theorem w1_blk (c : Dev nD) (t : Fin cfg0.N) :
    (iblk m c 6 t : FVec Ideal S256x256 .f32) = (m ((c : Thread nD τ).loc main_arg6)) := by
  obtain ⟨-, -, e0, e1, -⟩ := idx_mats t
  funext y
  unfold iblk
  rw [View.read_apply]
  show V m c main_arg6 _ = (m ((c : Thread nD τ).loc main_arg6)) y
  refine (congrFun (V_main_arg6 m c) _).trans (congrArg (m ((c : Thread nD τ).loc main_arg6)) (funext fun a => Fin.ext ?_))
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

theorem w2_blk (c : Dev nD) (t : Fin cfg0.N) :
    (iblk m c 10 t : FVec Ideal S256x256 .f32) = (m ((c : Thread nD τ).loc main_arg10)) := by
  obtain ⟨-, -, -, -, e0, e1, -⟩ := idx_mats t
  funext y
  unfold iblk
  rw [View.read_apply]
  show V m c main_arg10 _ = (m ((c : Thread nD τ).loc main_arg10)) y
  refine (congrFun (V_main_arg10 m c) _).trans (congrArg (m ((c : Thread nD τ).loc main_arg10)) (funext fun a => Fin.ext ?_))
  match a with
  | ⟨0, _⟩ => show win0_10.index t (0 : Fin 2) * 256 + 1 * (y 0).val = (y 0).val; rw [e0]; omega
  | ⟨1, _⟩ => show win0_10.index t (1 : Fin 2) * 256 + 1 * (y 1).val = (y 1).val; rw [e1]; omega

theorem wOut_blk (c : Dev nD) (t : Fin cfg0.N) :
    (iblk m c 16 t : FVec Ideal S256x32 .f32) = (m ((c : Thread nD τ).loc main_arg16)) := by
  obtain ⟨-, -, -, -, -, -, e0, e1⟩ := idx_mats t
  funext y
  unfold iblk
  rw [View.read_apply]
  show V m c main_arg16 _ = (m ((c : Thread nD τ).loc main_arg16)) y
  refine (congrFun (V_main_arg16 m c) _).trans (congrArg (m ((c : Thread nD τ).loc main_arg16)) (funext fun a => Fin.ext ?_))
  match a with
  | ⟨0, _⟩ => show win0_16.index t (0 : Fin 2) * 256 + 1 * (y 0).val = (y 0).val; rw [e0]; omega
  | ⟨1, _⟩ => show win0_16.index t (1 : Fin 2) * 32 + 1 * (y 1).val = (y 1).val; rw [e1]; omega

/-! The twelve re-laid vectors are staged whole: each block's one row is its argument vector. -/

theorem bInp_blk (c : Dev nD) (t : Fin cfg0.N) :
    row (iblk m c 3 t : FVec Ideal S1x256 .f32) 0 = coords (m ((c : Thread nD τ).loc main_arg3)) := by
  obtain ⟨⟨e0, e1⟩, -⟩ := idx_vecs t
  funext j
  show (iblk m c 3 t : FVec Ideal S1x256 .f32) (ix2 (0 : Fin 1) j) = (m ((c : Thread nD τ).loc main_arg3)) (ix1 j)
  unfold iblk
  rw [View.read_apply]
  show V m c main_v0 _ = _
  refine Eq.trans (congrArg (V m c main_v0) (funext fun a => Fin.ext ?_))
    ((congrFun (V_v0 m c) (ix2 (0 : Fin 1) j)).trans (shapeCast_a_1a_apply _ _ 0 j))
  match a with
  | ⟨0, _⟩ => show win0_3.index t (0 : Fin 2) * 1 + 1 * 0 = 0; rw [e0]
  | ⟨1, _⟩ => show win0_3.index t (1 : Fin 2) * 256 + 1 * j.val = j.val; rw [e1]; omega

theorem gInp_blk (c : Dev nD) (t : Fin cfg0.N) :
    row (iblk m c 4 t : FVec Ideal S1x256 .f32) 0 = coords (m ((c : Thread nD τ).loc main_arg4)) := by
  obtain ⟨-, ⟨e0, e1⟩, -⟩ := idx_vecs t
  funext j
  show (iblk m c 4 t : FVec Ideal S1x256 .f32) (ix2 (0 : Fin 1) j) = (m ((c : Thread nD τ).loc main_arg4)) (ix1 j)
  unfold iblk
  rw [View.read_apply]
  show V m c main_v1 _ = _
  refine Eq.trans (congrArg (V m c main_v1) (funext fun a => Fin.ext ?_))
    ((congrFun (V_v1 m c) (ix2 (0 : Fin 1) j)).trans (shapeCast_a_1a_apply _ _ 0 j))
  match a with
  | ⟨0, _⟩ => show win0_4.index t (0 : Fin 2) * 1 + 1 * 0 = 0; rw [e0]
  | ⟨1, _⟩ => show win0_4.index t (1 : Fin 2) * 256 + 1 * j.val = j.val; rw [e1]; omega

theorem sInp_blk (c : Dev nD) (t : Fin cfg0.N) :
    row (iblk m c 5 t : FVec Ideal S1x256 .f32) 0 = coords (m ((c : Thread nD τ).loc main_arg5)) := by
  obtain ⟨-, -, ⟨e0, e1⟩, -⟩ := idx_vecs t
  funext j
  show (iblk m c 5 t : FVec Ideal S1x256 .f32) (ix2 (0 : Fin 1) j) = (m ((c : Thread nD τ).loc main_arg5)) (ix1 j)
  unfold iblk
  rw [View.read_apply]
  show V m c main_v2 _ = _
  refine Eq.trans (congrArg (V m c main_v2) (funext fun a => Fin.ext ?_))
    ((congrFun (V_v2 m c) (ix2 (0 : Fin 1) j)).trans (shapeCast_a_1a_apply _ _ 0 j))
  match a with
  | ⟨0, _⟩ => show win0_5.index t (0 : Fin 2) * 1 + 1 * 0 = 0; rw [e0]
  | ⟨1, _⟩ => show win0_5.index t (1 : Fin 2) * 256 + 1 * j.val = j.val; rw [e1]; omega

theorem b1_blk (c : Dev nD) (t : Fin cfg0.N) :
    row (iblk m c 7 t : FVec Ideal S1x256 .f32) 0 = coords (m ((c : Thread nD τ).loc main_arg7)) := by
  obtain ⟨-, -, -, ⟨e0, e1⟩, -⟩ := idx_vecs t
  funext j
  show (iblk m c 7 t : FVec Ideal S1x256 .f32) (ix2 (0 : Fin 1) j) = (m ((c : Thread nD τ).loc main_arg7)) (ix1 j)
  unfold iblk
  rw [View.read_apply]
  show V m c main_v3 _ = _
  refine Eq.trans (congrArg (V m c main_v3) (funext fun a => Fin.ext ?_))
    ((congrFun (V_v3 m c) (ix2 (0 : Fin 1) j)).trans (shapeCast_a_1a_apply _ _ 0 j))
  match a with
  | ⟨0, _⟩ => show win0_7.index t (0 : Fin 2) * 1 + 1 * 0 = 0; rw [e0]
  | ⟨1, _⟩ => show win0_7.index t (1 : Fin 2) * 256 + 1 * j.val = j.val; rw [e1]; omega

theorem g1_blk (c : Dev nD) (t : Fin cfg0.N) :
    row (iblk m c 8 t : FVec Ideal S1x256 .f32) 0 = coords (m ((c : Thread nD τ).loc main_arg8)) := by
  obtain ⟨-, -, -, -, ⟨e0, e1⟩, -⟩ := idx_vecs t
  funext j
  show (iblk m c 8 t : FVec Ideal S1x256 .f32) (ix2 (0 : Fin 1) j) = (m ((c : Thread nD τ).loc main_arg8)) (ix1 j)
  unfold iblk
  rw [View.read_apply]
  show V m c main_v4 _ = _
  refine Eq.trans (congrArg (V m c main_v4) (funext fun a => Fin.ext ?_))
    ((congrFun (V_v4 m c) (ix2 (0 : Fin 1) j)).trans (shapeCast_a_1a_apply _ _ 0 j))
  match a with
  | ⟨0, _⟩ => show win0_8.index t (0 : Fin 2) * 1 + 1 * 0 = 0; rw [e0]
  | ⟨1, _⟩ => show win0_8.index t (1 : Fin 2) * 256 + 1 * j.val = j.val; rw [e1]; omega

theorem s1_blk (c : Dev nD) (t : Fin cfg0.N) :
    row (iblk m c 9 t : FVec Ideal S1x256 .f32) 0 = coords (m ((c : Thread nD τ).loc main_arg9)) := by
  obtain ⟨-, -, -, -, -, ⟨e0, e1⟩, -⟩ := idx_vecs t
  funext j
  show (iblk m c 9 t : FVec Ideal S1x256 .f32) (ix2 (0 : Fin 1) j) = (m ((c : Thread nD τ).loc main_arg9)) (ix1 j)
  unfold iblk
  rw [View.read_apply]
  show V m c main_v5 _ = _
  refine Eq.trans (congrArg (V m c main_v5) (funext fun a => Fin.ext ?_))
    ((congrFun (V_v5 m c) (ix2 (0 : Fin 1) j)).trans (shapeCast_a_1a_apply _ _ 0 j))
  match a with
  | ⟨0, _⟩ => show win0_9.index t (0 : Fin 2) * 1 + 1 * 0 = 0; rw [e0]
  | ⟨1, _⟩ => show win0_9.index t (1 : Fin 2) * 256 + 1 * j.val = j.val; rw [e1]; omega

theorem b2_blk (c : Dev nD) (t : Fin cfg0.N) :
    row (iblk m c 11 t : FVec Ideal S1x256 .f32) 0 = coords (m ((c : Thread nD τ).loc main_arg11)) := by
  obtain ⟨-, -, -, -, -, -, ⟨e0, e1⟩, -⟩ := idx_vecs t
  funext j
  show (iblk m c 11 t : FVec Ideal S1x256 .f32) (ix2 (0 : Fin 1) j) = (m ((c : Thread nD τ).loc main_arg11)) (ix1 j)
  unfold iblk
  rw [View.read_apply]
  show V m c main_v6 _ = _
  refine Eq.trans (congrArg (V m c main_v6) (funext fun a => Fin.ext ?_))
    ((congrFun (V_v6 m c) (ix2 (0 : Fin 1) j)).trans (shapeCast_a_1a_apply _ _ 0 j))
  match a with
  | ⟨0, _⟩ => show win0_11.index t (0 : Fin 2) * 1 + 1 * 0 = 0; rw [e0]
  | ⟨1, _⟩ => show win0_11.index t (1 : Fin 2) * 256 + 1 * j.val = j.val; rw [e1]; omega

theorem g2_blk (c : Dev nD) (t : Fin cfg0.N) :
    row (iblk m c 12 t : FVec Ideal S1x256 .f32) 0 = coords (m ((c : Thread nD τ).loc main_arg12)) := by
  obtain ⟨-, -, -, -, -, -, -, ⟨e0, e1⟩, -⟩ := idx_vecs t
  funext j
  show (iblk m c 12 t : FVec Ideal S1x256 .f32) (ix2 (0 : Fin 1) j) = (m ((c : Thread nD τ).loc main_arg12)) (ix1 j)
  unfold iblk
  rw [View.read_apply]
  show V m c main_v7 _ = _
  refine Eq.trans (congrArg (V m c main_v7) (funext fun a => Fin.ext ?_))
    ((congrFun (V_v7 m c) (ix2 (0 : Fin 1) j)).trans (shapeCast_a_1a_apply _ _ 0 j))
  match a with
  | ⟨0, _⟩ => show win0_12.index t (0 : Fin 2) * 1 + 1 * 0 = 0; rw [e0]
  | ⟨1, _⟩ => show win0_12.index t (1 : Fin 2) * 256 + 1 * j.val = j.val; rw [e1]; omega

theorem s2_blk (c : Dev nD) (t : Fin cfg0.N) :
    row (iblk m c 13 t : FVec Ideal S1x256 .f32) 0 = coords (m ((c : Thread nD τ).loc main_arg13)) := by
  obtain ⟨-, -, -, -, -, -, -, -, ⟨e0, e1⟩, -⟩ := idx_vecs t
  funext j
  show (iblk m c 13 t : FVec Ideal S1x256 .f32) (ix2 (0 : Fin 1) j) = (m ((c : Thread nD τ).loc main_arg13)) (ix1 j)
  unfold iblk
  rw [View.read_apply]
  show V m c main_v8 _ = _
  refine Eq.trans (congrArg (V m c main_v8) (funext fun a => Fin.ext ?_))
    ((congrFun (V_v8 m c) (ix2 (0 : Fin 1) j)).trans (shapeCast_a_1a_apply _ _ 0 j))
  match a with
  | ⟨0, _⟩ => show win0_13.index t (0 : Fin 2) * 1 + 1 * 0 = 0; rw [e0]
  | ⟨1, _⟩ => show win0_13.index t (1 : Fin 2) * 256 + 1 * j.val = j.val; rw [e1]; omega

theorem g3_blk (c : Dev nD) (t : Fin cfg0.N) :
    row (iblk m c 14 t : FVec Ideal S1x256 .f32) 0 = coords (m ((c : Thread nD τ).loc main_arg14)) := by
  obtain ⟨-, -, -, -, -, -, -, -, -, ⟨e0, e1⟩, -⟩ := idx_vecs t
  funext j
  show (iblk m c 14 t : FVec Ideal S1x256 .f32) (ix2 (0 : Fin 1) j) = (m ((c : Thread nD τ).loc main_arg14)) (ix1 j)
  unfold iblk
  rw [View.read_apply]
  show V m c main_v9 _ = _
  refine Eq.trans (congrArg (V m c main_v9) (funext fun a => Fin.ext ?_))
    ((congrFun (V_v9 m c) (ix2 (0 : Fin 1) j)).trans (shapeCast_a_1a_apply _ _ 0 j))
  match a with
  | ⟨0, _⟩ => show win0_14.index t (0 : Fin 2) * 1 + 1 * 0 = 0; rw [e0]
  | ⟨1, _⟩ => show win0_14.index t (1 : Fin 2) * 256 + 1 * j.val = j.val; rw [e1]; omega

theorem s3_blk (c : Dev nD) (t : Fin cfg0.N) :
    row (iblk m c 15 t : FVec Ideal S1x256 .f32) 0 = coords (m ((c : Thread nD τ).loc main_arg15)) := by
  obtain ⟨-, -, -, -, -, -, -, -, -, -, ⟨e0, e1⟩, -⟩ := idx_vecs t
  funext j
  show (iblk m c 15 t : FVec Ideal S1x256 .f32) (ix2 (0 : Fin 1) j) = (m ((c : Thread nD τ).loc main_arg15)) (ix1 j)
  unfold iblk
  rw [View.read_apply]
  show V m c main_v10 _ = _
  refine Eq.trans (congrArg (V m c main_v10) (funext fun a => Fin.ext ?_))
    ((congrFun (V_v10 m c) (ix2 (0 : Fin 1) j)).trans (shapeCast_a_1a_apply _ _ 0 j))
  match a with
  | ⟨0, _⟩ => show win0_15.index t (0 : Fin 2) * 1 + 1 * 0 = 0; rw [e0]
  | ⟨1, _⟩ => show win0_15.index t (1 : Fin 2) * 256 + 1 * j.val = j.val; rw [e1]; omega

theorem bOut_blk (c : Dev nD) (t : Fin cfg0.N) :
    row (iblk m c 17 t : FVec Ideal S1x32 .f32) 0 = coords (m ((c : Thread nD τ).loc main_arg17)) := by
  obtain ⟨-, -, -, -, -, -, -, -, -, -, -, ⟨e0, e1⟩⟩ := idx_vecs t
  funext j
  show (iblk m c 17 t : FVec Ideal S1x32 .f32) (ix2 (0 : Fin 1) j) = (m ((c : Thread nD τ).loc main_arg17)) (ix1 j)
  unfold iblk
  rw [View.read_apply]
  show V m c main_v11 _ = _
  refine Eq.trans (congrArg (V m c main_v11) (funext fun a => Fin.ext ?_))
    ((congrFun (V_v11 m c) (ix2 (0 : Fin 1) j)).trans (shapeCast_a_1a_apply _ _ 0 j))
  match a with
  | ⟨0, _⟩ => show win0_17.index t (0 : Fin 2) * 1 + 1 * 0 = 0; rw [e0]
  | ⟨1, _⟩ => show win0_17.index t (1 : Fin 2) * 32 + 1 * j.val = j.val; rw [e1]; omega

/-- The parameters read off the sixteen parameter blocks at any point are the parameters read off the arguments. -/
theorem blockWeights_eq (c : Dev nD) (t : Fin cfg0.N) :
    blockWeights (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t)
      (iblk m c 16 t) (iblk m c 17 t) = params m c := by
  unfold blockWeights params weights
  congr 1
  · exact congrArg entries (wInp_blk m c t)
  · exact bInp_blk m c t
  · exact gInp_blk m c t
  · exact sInp_blk m c t
  · exact congrArg entries (w1_blk m c t)
  · exact b1_blk m c t
  · exact g1_blk m c t
  · exact s1_blk m c t
  · exact congrArg entries (w2_blk m c t)
  · exact b2_blk m c t
  · exact g2_blk m c t
  · exact s2_blk m c t
  · exact g3_blk m c t
  · exact s3_blk m c t
  · exact congrArg entries (wOut_blk m c t)
  · exact bOut_blk m c t

/-! ## What each point writes back -/

/-- An entry of the block stored to the hidden output at point t is the row network's entry at row 2048·t + y₀. -/
theorem zout_at (c : Dev nD) (t : Fin cfg0.N) (y : S2048x256.Idx) (i : S262144x256.Idx)
    (h0 : (i 0).val = 2048 * t.val + (y 0).val) (h1 : (i 1).val = (y 1).val) :
    zoutBlk (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) y = Zout (params m c) (argX m c) (argZ m c) i := by
  obtain ⟨p, q, rfl⟩ : ∃ (p : Fin 2048) (q : Fin 256), y = ix2 p q := ⟨y 0, y 1, eq_ix2 y⟩
  obtain ⟨r, j, rfl⟩ : ∃ (r : Fin 262144) (j : Fin 256), i = ix2 r j := ⟨i 0, i 1, eq_ix2 i⟩
  obtain rfl : j = q := Fin.ext h1
  rw [Zout_ix2]
  refine (congrFun (row_zoutBlk (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) p) j).trans ?_
  rw [blockWeights_eq m c t, xrow m c t p r h0, zrow m c t p r h0]

/-- The same for the block stored to the 32-wide output. -/
theorem dx_at (c : Dev nD) (t : Fin cfg0.N) (y : S2048x32.Idx) (i : S262144x32.Idx)
    (h0 : (i 0).val = 2048 * t.val + (y 0).val) (h1 : (i 1).val = (y 1).val) :
    dxBlk (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) y = Dx (params m c) (argX m c) (argZ m c) i := by
  obtain ⟨p, q, rfl⟩ : ∃ (p : Fin 2048) (q : Fin 32), y = ix2 p q := ⟨y 0, y 1, eq_ix2 y⟩
  obtain ⟨r, j, rfl⟩ : ∃ (r : Fin 262144) (j : Fin 32), i = ix2 r j := ⟨i 0, i 1, eq_ix2 i⟩
  obtain rfl : j = q := Fin.ext h1
  rw [Dx_ix2]
  refine (congrFun (row_dxBlk (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) p) j).trans ?_
  rw [blockWeights_eq m c t, xrow m c t p r h0, zrow m c t p r h0]

/-- What point t writes back to the hidden output array is block t of the row network applied row by row. -/
theorem flushedZout (c : Dev nD) (t : Fin cfg0.N) :
    (dats m 0 c).flushed 18 t = ((cfg0.win 18).blk t).view.read (Elt Ideal) (Zout (params m c) (argX m c) (argZ m c)) := by
  obtain ⟨-, -, -, -, e0, e1, -⟩ := idx_rows t
  show (cfg0.win 18).cut (grid0.coords t) ((dats m 0 c).after 18 t) = _
  rw [after0_18]
  unfold out0_18
  rw [View.canon_unit_zero hz]
  simp only [View.ld_unit_zero (S := S2048x48) hz, View.ld_unit_zero (S := S2048x256) hz, View.ld_unit_zero (S := S48x256) hz,
    View.ld_unit_zero (S := S1x256) hz, View.ld_unit_zero (S := S256x256) hz]
  funext y
  refine zout_at m c t y _ ?_ ?_
  · show win0_18.index t (0 : Fin 2) * 2048 + 1 * (y 0).val = 2048 * t.val + (y 0).val
    rw [e0]; omega
  · show win0_18.index t (1 : Fin 2) * 256 + 1 * (y 1).val = (y 1).val
    rw [e1]; omega

/-- What point t writes back to the 32-wide output array likewise. -/
theorem flushedDx (c : Dev nD) (t : Fin cfg0.N) :
    (dats m 0 c).flushed 19 t = ((cfg0.win 19).blk t).view.read (Elt Ideal) (Dx (params m c) (argX m c) (argZ m c)) := by
  obtain ⟨-, -, -, -, -, -, e0, e1⟩ := idx_rows t
  show (cfg0.win 19).cut (grid0.coords t) ((dats m 0 c).after 19 t) = _
  rw [after0_19]
  unfold out0_19
  rw [View.canon_unit_zero hz]
  simp only [View.ld_unit_zero (S := S2048x48) hz, View.ld_unit_zero (S := S2048x256) hz, View.ld_unit_zero (S := S48x256) hz,
    View.ld_unit_zero (S := S1x256) hz, View.ld_unit_zero (S := S256x256) hz, View.ld_unit_zero (S := S256x32) hz,
    View.ld_unit_zero (S := S1x32) hz]
  funext y
  refine dx_at m c t y _ ?_ ?_
  · show win0_19.index t (0 : Fin 2) * 2048 + 1 * (y 0).val = 2048 * t.val + (y 0).val
    rw [e0]; omega
  · show win0_19.index t (1 : Fin 2) * 32 + 1 * (y 1).val = (y 1).val
    rw [e1]; omega

/-! ## The 128 blocks tile each output array -/

theorem mem_blkZout (t : Fin cfg0.N) (i : S262144x256.Idx) :
    i ∈ ((cfg0.win 18).blk t).view.set ↔ ∀ a : Fin 2, win0_18.index t a * S2048x256.size a ≤ (i a).val
      ∧ (i a).val < win0_18.index t a * S2048x256.size a + S2048x256.size a := by
  show i ∈ ((View.whole main_v12_0).slice (win0_18.rect t)).set ↔ _
  rw [View.set_slice_whole, Rect.mem_set_unit]
  exact Iff.rfl

theorem mem_blkDx (t : Fin cfg0.N) (i : S262144x32.Idx) :
    i ∈ ((cfg0.win 19).blk t).view.set ↔ ∀ a : Fin 2, win0_19.index t a * S2048x32.size a ≤ (i a).val
      ∧ (i a).val < win0_19.index t a * S2048x32.size a + S2048x32.size a := by
  show i ∈ ((View.whole main_v12_1).slice (win0_19.rect t)).set ↔ _
  rw [View.set_slice_whole, Rect.mem_set_unit]
  exact Iff.rfl

/-- Row r of the hidden output is in the block of point r / 2048. -/
theorem coverZout (i : S262144x256.Idx) :
    ∃ t : Fin cfg0.N, (cfg0.win 18).flush t = true ∧ i ∈ ((cfg0.win 18).blk t).view.set := by
  have hi0 : (i 0).val < 262144 := (i 0).isLt
  have hi1 : (i 1).val < 256 := (i 1).isLt
  have hN : grid0.N = 128 := N_0
  have hlt : (i 0).val / 2048 < cfg0.N := by show (i 0).val / 2048 < grid0.N; rw [hN]; omega
  obtain ⟨-, -, -, -, e0, e1, -⟩ := idx_rows ⟨(i 0).val / 2048, hlt⟩
  refine ⟨⟨(i 0).val / 2048, hlt⟩, flush0_18 _, ?_⟩
  rw [mem_blkZout]
  intro a
  match a with
  | ⟨0, _⟩ =>
    show win0_18.index ⟨(i 0).val / 2048, hlt⟩ (0 : Fin 2) * 2048 ≤ (i 0).val
      ∧ (i 0).val < win0_18.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_18.index ⟨(i 0).val / 2048, hlt⟩ (1 : Fin 2) * 256 ≤ (i 1).val
      ∧ (i 1).val < win0_18.index ⟨(i 0).val / 2048, hlt⟩ (1 : Fin 2) * 256 + 256
    rw [e1]; omega

/-- Row r of the 32-wide output is in the block of point r / 2048. -/
theorem coverDx (i : S262144x32.Idx) :
    ∃ t : Fin cfg0.N, (cfg0.win 19).flush t = true ∧ i ∈ ((cfg0.win 19).blk t).view.set := by
  have hi0 : (i 0).val < 262144 := (i 0).isLt
  have hi1 : (i 1).val < 32 := (i 1).isLt
  have hN : grid0.N = 128 := N_0
  have hlt : (i 0).val / 2048 < cfg0.N := by show (i 0).val / 2048 < grid0.N; rw [hN]; omega
  obtain ⟨-, -, -, -, -, -, e0, e1⟩ := idx_rows ⟨(i 0).val / 2048, hlt⟩
  refine ⟨⟨(i 0).val / 2048, hlt⟩, flush0_19 _, ?_⟩
  rw [mem_blkDx]
  intro a
  match a with
  | ⟨0, _⟩ =>
    show win0_19.index ⟨(i 0).val / 2048, hlt⟩ (0 : Fin 2) * 2048 ≤ (i 0).val
      ∧ (i 0).val < win0_19.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_19.index ⟨(i 0).val / 2048, hlt⟩ (1 : Fin 2) * 32 ≤ (i 1).val
      ∧ (i 1).val < win0_19.index ⟨(i 0).val / 2048, hlt⟩ (1 : Fin 2) * 32 + 32
    rw [e1]; omega

/-- The hidden output array after the region. -/
theorem finalZout (c : Dev nD) : (dats m 0 c).arrAt 18 cfg0.N = Zout (params m c) (argX m c) (argZ m c) :=
  (dats m 0 c).arrAt_eq_of_cover 18 (Zout (params m c) (argX m c) (argZ m c)) (fun t _ => flushedZout m c t) coverZout

/-- The 32-wide output array after the region. -/
theorem finalDx (c : Dev nD) : (dats m 0 c).arrAt 19 cfg0.N = Dx (params m c) (argX m c) (argZ m c) :=
  (dats m 0 c).arrAt_eq_of_cover 19 (Dx (params m c) (argX m c) (argZ m c)) (fun t _ => flushedDx m c t) coverDx

/-! ## The reshape after the region, and the run -/

/-- After the region the 32-wide output is re-laid as [262144, 8, 4]: the same reshape of Dx. -/
theorem tailDx (c : Dev nD) :
    Pipeline.afterTail₀ cfgs (dats m) 0 (V0 m) [hostOps1] c main_v13
      = shapeCast S262144x8x4 (Dx (params m c) (argX m c) (argZ m c)) shapeCasts_S262144x32_S262144x8x4 := by
  unfold Pipeline.afterTail₀
  show StableHlo.after hostOps1 _ (Proc.devRef .tc main_v13) = _
  after_results
  exact congrArg (fun A => shapeCast S262144x8x4 A shapeCasts_S262144x32_S262144x8x4)
    ((Pipeline.withArrays_arr spec0 launch0.win.arr_inj c _ _ 19).trans (finalDx m c))

/-- Every weakly fair execution of the idealized kernel program terminates with its first result at the reshaped
    Dx, its second at Zout, and its arguments unchanged. -/
theorem run : θ_run defs (onTc (τ := τ) (main (F := Ideal))) ⟨m, fun _ => 0, ρ⟩ fun r => ∀ c : Dev nD,
      r.2.mem ((c : Thread nD τ).loc main_v13)
        = shapeCast S262144x8x4 (Dx (params m c) (argX m c) (argZ m c)) shapeCasts_S262144x32_S262144x8x4
      ∧ r.2.mem ((c : Thread nD τ).loc main_v12_0) = Zout (params m c) (argX m c) (argZ m c)
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8))
      ∧ r.2.mem ((c : Thread nD τ).loc main_arg9) = (m ((c : Thread nD τ).loc main_arg9))
      ∧ r.2.mem ((c : Thread nD τ).loc main_arg10) = (m ((c : Thread nD τ).loc main_arg10))
      ∧ r.2.mem ((c : Thread nD τ).loc main_arg11) = (m ((c : Thread nD τ).loc main_arg11))
      ∧ r.2.mem ((c : Thread nD τ).loc main_arg12) = (m ((c : Thread nD τ).loc main_arg12))
      ∧ r.2.mem ((c : Thread nD τ).loc main_arg13) = (m ((c : Thread nD τ).loc main_arg13))
      ∧ r.2.mem ((c : Thread nD τ).loc main_arg14) = (m ((c : Thread nD τ).loc main_arg14))
      ∧ r.2.mem ((c : Thread nD τ).loc main_arg15) = (m ((c : Thread nD τ).loc main_arg15))
      ∧ r.2.mem ((c : Thread nD τ).loc main_arg16) = (m ((c : Thread nD τ).loc main_arg16))
      ∧ r.2.mem ((c : Thread nD τ).loc main_arg17) = (m ((c : Thread nD τ).loc main_arg17)) :=
  (θ_run defs _ _).mono (fun _ h c =>
    ⟨((h c).2 main_v13 (Pipeline.mem_restRefs_of main_v13 (by decide) (by decide))).trans (tailDx m c),
      ((h c).1 18).trans (finalZout m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).1 16).trans (((dats m 0 c).arrAt_in 16 rfl _).trans ((A_eq m c 16).trans (V_main_arg16 m c))),
      ((h c).2 main_arg17 (Pipeline.mem_restRefs_of main_arg17 (by decide) (by decide))).trans (W_main_arg17 m (dats m) c)⟩)
    (run_main m ρ)

end Cert.KernelIdeal.Arrays

end
-- ==== Proof.HostOps.lean ====
/-
  The reference's vector operations on the whole array of 262144 rows, read at an entry.

  The reference builds the same layer from host operations: a broadcast of a parameter vector to every row (through
  a [1, 256] intermediate), a rectifier against a broadcast zero, and the layer normalisation written out as a row
  sum started from a zero scalar, re-laid as a column, divided by a broadcast 256; the centred array; the reciprocal
  standard deviation column; and the affine step. Each piece is named here by exactly the term the reference's run
  composes, and read at the entry (r, j): it depends on row r of its operand only, and is the row-level function
  of RowSpec there.
-/
import proofs.«169053_j15496242004634_1_alg».proof.Proof.Gen.ReferenceIdeal
import proofs.«169053_j15496242004634_1_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.Whole

open Cert.ReferenceIdeal Cert.ReferenceIdeal.Gen Idealize.ShloMosaic Idealize.ShloMosaic.ValueIdx Cert.RowNet

/-! ## Broadcasts read at an entry -/

/-- A per-row vector re-laid as a [262144, 1] column reads the vector at the row. -/
theorem colOfVec_apply (y : FVec Ideal S262144 .f32) (r : Fin 262144) (u : Fin 1) :
    broadcastInDim S262144x1 ![0] bcast_S262144_S262144x1_0 y (ix2 r u) = y (ix1 r) :=
  broadcastInDim_apply _ bcast_S262144_S262144x1_0 y (ix2 r u) (ix1 r) (fun a => match a with
    | ⟨0, _⟩ => by show r.val = if (262144 : Nat) = 1 then 0 else r.val; rw [if_neg (by decide)])

/-- A scalar splat over the column reads the scalar. -/
theorem colOfScalar_apply (y : FVec Ideal S_ .f32) (r : Fin 262144) (u : Fin 1) :
    broadcastInDim S262144x1 ![] bcast_S_S262144x1 y (ix2 r u) = y ix0 :=
  broadcastInDim_apply _ bcast_S_S262144x1 y (ix2 r u) ix0 (fun a => a.elim0)

/-- A scalar splat over the whole array reads the scalar. -/
theorem fullOfScalar_apply (y : FVec Ideal S_ .f32) (r : Fin 262144) (j : Fin 256) :
    broadcastInDim S262144x256 ![] bcast_S_S262144x256 y (ix2 r j) = y ix0 :=
  broadcastInDim_apply _ bcast_S_S262144x256 y (ix2 r j) ix0 (fun a => a.elim0)

/-- A column broadcast over the 256 features reads the column at the row. -/
theorem fullOfCol_apply (y : FVec Ideal S262144x1 .f32) (r : Fin 262144) (j : Fin 256) :
    broadcastInDim S262144x256 ![0, 1] bcast_S262144x1_S262144x256_0_1 y (ix2 r j) = y (ix2 r (0 : Fin 1)) :=
  broadcastInDim_apply _ bcast_S262144x1_S262144x256_0_1 y (ix2 r j) (ix2 r (0 : Fin 1)) (fun a => match a with
    | ⟨0, _⟩ => by show r.val = if (262144 : Nat) = 1 then 0 else r.val; rw [if_neg (by decide)]
    | ⟨1, _⟩ => by show 0 = if (1 : Nat) = 1 then 0 else j.val; rw [if_pos rfl])

/-- A 256-feature parameter vector broadcast to every row, as the reference does it. -/
def param (g : FVec Ideal S256 .f32) : FVec Ideal S262144x256 .f32 :=
  broadcastInDim S262144x256 ![0, 1] bcast_S1x256_S262144x256_0_1 (broadcastInDim S1x256 ![1] bcast_S256_S1x256_1 g)

theorem param_apply (g : FVec Ideal S256 .f32) (r : Fin 262144) (j : Fin 256) : param g (ix2 r j) = g (ix1 j) := by
  unfold param
  refine (broadcastInDim_apply _ bcast_S1x256_S262144x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])).trans ?_
  exact broadcastInDim_apply _ bcast_S256_S1x256_1 g (ix2 (0 : Fin 1) j) (ix1 j) (fun a => match a with
    | ⟨0, _⟩ => by show j.val = if (256 : Nat) = 1 then 0 else j.val; rw [if_neg (by decide)])

/-- The 32-feature output bias broadcast to every row. -/
def paramOut (g : FVec Ideal S32 .f32) : FVec Ideal S262144x32 .f32 :=
  broadcastInDim S262144x32 ![0, 1] bcast_S1x32_S262144x32_0_1 (broadcastInDim S1x32 ![1] bcast_S32_S1x32_1 g)

theorem paramOut_apply (g : FVec Ideal S32 .f32) (r : Fin 262144) (j : Fin 32) : paramOut g (ix2 r j) = g (ix1 j) := by
  unfold paramOut
  refine (broadcastInDim_apply _ bcast_S1x32_S262144x32_0_1 _ (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])).trans ?_
  exact broadcastInDim_apply _ bcast_S32_S1x32_1 g (ix2 (0 : Fin 1) j) (ix1 j) (fun a => match a with
    | ⟨0, _⟩ => by show j.val = if (32 : Nat) = 1 then 0 else j.val; rw [if_neg (by decide)])

/-! ## The rectifier -/

/-- The rectifier on the whole array: the maximum with a broadcast zero. -/
def rect (v : FVec Ideal S262144x256 .f32) : FVec Ideal S262144x256 .f32 :=
  maximumf v (broadcastInDim S262144x256 ![] bcast_S_S262144x256 (constant S_ .f32 0x00000000#32))

theorem rect_apply (v : FVec Ideal S262144x256 .f32) (r : Fin 262144) (j : Fin 256) :
    rect v (ix2 r j) = max (v (ix2 r j)) cZero := by
  unfold rect
  show max (v (ix2 r j)) (broadcastInDim S262144x256 ![] bcast_S_S262144x256 (constant S_ .f32 0x00000000#32) (ix2 r j)) = _
  rw [fullOfScalar_apply]
  rfl

/-! ## Layer normalisation, piece by piece -/

/-- The host's sum over the 256 features of each row, started from the zero scalar, read at row r. -/
theorem rowSum_apply (v : FVec Ideal S262144x256 .f32) (r : Fin 262144) :
    Host.reduceAdd v (constant (F := Ideal) S_ .f32 0x00000000#32) reducesTo_S262144x256_S262144_d1 h_S_ (ix1 r)
      = ∑ k : Fin 256, v (ix2 r k) := by
  simp only [Host.reduceAdd, Ideal.hostReduceAdd_def]
  rw [Ideal.hostReduceAdd_single reducesTo_S262144x256_S262144_d1 (by decide)]
  refine Eq.trans (congrArg₂ (· + ·) Ideal.ofBits_zero_f32 (Finset.sum_congr rfl fun k _ => ?_)) (zero_add _)
  exact congrArg v (funext fun a => Fin.ext (by match a with | ⟨0, _⟩ => rfl | ⟨1, _⟩ => rfl))

/-- The mean of each row, as a [262144, 1] column. -/
def meanCol (v : FVec Ideal S262144x256 .f32) : FVec Ideal S262144x1 .f32 :=
  Host.divf
    (broadcastInDim S262144x1 ![0] bcast_S262144_S262144x1_0
      (Host.reduceAdd v (constant S_ .f32 0x00000000#32) reducesTo_S262144x256_S262144_d1 h_S_))
    (broadcastInDim S262144x1 ![] bcast_S_S262144x1 (constant S_ .f32 0x43800000#32))

theorem meanCol_apply (v : FVec Ideal S262144x256 .f32) (r : Fin 262144) (u : Fin 1) :
    meanCol v (ix2 r u) = mean (row v r) := by
  unfold meanCol
  show Ideal.div
      (broadcastInDim S262144x1 ![0] bcast_S262144_S262144x1_0
        (Host.reduceAdd v (constant (F := Ideal) S_ .f32 0x00000000#32) reducesTo_S262144x256_S262144_d1 h_S_) (ix2 r u))
      (broadcastInDim S262144x1 ![] bcast_S_S262144x1 (constant (F := Ideal) S_ .f32 0x43800000#32) (ix2 r u)) = _
  rw [colOfVec_apply, colOfScalar_apply, rowSum_apply]
  rfl

/-- The array with each row's mean taken off. -/
def centred (v : FVec Ideal S262144x256 .f32) : FVec Ideal S262144x256 .f32 :=
  subf v (broadcastInDim S262144x256 ![0, 1] bcast_S262144x1_S262144x256_0_1 (meanCol v))

theorem centred_apply (v : FVec Ideal S262144x256 .f32) (r : Fin 262144) (j : Fin 256) :
    centred v (ix2 r j) = centre (row v r) j := by
  unfold centred
  show v (ix2 r j) - broadcastInDim S262144x256 ![0, 1] bcast_S262144x1_S262144x256_0_1 (meanCol v) (ix2 r j) = _
  rw [fullOfCol_apply, meanCol_apply]
  rfl

theorem row_centred (v : FVec Ideal S262144x256 .f32) (r : Fin 262144) : row (centred v) r = centre (row v r) :=
  funext fun j => centred_apply v r j

/-- The reciprocal standard deviation of each (centred) row, as a column. -/
def rstdCol (d : FVec Ideal S262144x256 .f32) : FVec Ideal S262144x1 .f32 :=
  Host.rsqrt (addf
    (Host.divf
      (broadcastInDim S262144x1 ![0] bcast_S262144_S262144x1_0
        (Host.reduceAdd (mulf d d) (constant S_ .f32 0x00000000#32) reducesTo_S262144x256_S262144_d1 h_S_))
      (broadcastInDim S262144x1 ![] bcast_S_S262144x1 (constant S_ .f32 0x43800000#32)))
    (broadcastInDim S262144x1 ![] bcast_S_S262144x1 (constant S_ .f32 0x3727C5AC#32)))

theorem rstdCol_apply (d : FVec Ideal S262144x256 .f32) (r : Fin 262144) (u : Fin 1) :
    rstdCol d (ix2 r u) = rstd (row d r) := by
  unfold rstdCol
  show Ideal.rsqrt (Ideal.div
      (broadcastInDim S262144x1 ![0] bcast_S262144_S262144x1_0
        (Host.reduceAdd (mulf d d) (constant (F := Ideal) S_ .f32 0x00000000#32) reducesTo_S262144x256_S262144_d1 h_S_) (ix2 r u))
      (broadcastInDim S262144x1 ![] bcast_S_S262144x1 (constant (F := Ideal) S_ .f32 0x43800000#32) (ix2 r u))
    + broadcastInDim S262144x1 ![] bcast_S_S262144x1 (constant (F := Ideal) S_ .f32 0x3727C5AC#32) (ix2 r u)) = _
  rw [colOfVec_apply, colOfScalar_apply, colOfScalar_apply, rowSum_apply]
  rfl

/-- Layer normalisation of the whole array with gain and shift vectors, as the reference composes it. -/
def normed (v : FVec Ideal S262144x256 .f32) (g b : FVec Ideal S256 .f32) : FVec Ideal S262144x256 .f32 :=
  addf (mulf (mulf (centred v) (broadcastInDim S262144x256 ![0, 1] bcast_S262144x1_S262144x256_0_1 (rstdCol (centred v)))) (param g))
    (param b)

/-- Row r of the normalised array is the normalised row r. -/
theorem row_normed (v : FVec Ideal S262144x256 .f32) (g b : FVec Ideal S256 .f32) (r : Fin 262144) :
    row (normed v g b) r = layerNorm (row v r) (coords g) (coords b) := by
  funext j
  show normed v g b (ix2 r j) = _
  unfold normed
  show centred v (ix2 r j) * broadcastInDim S262144x256 ![0, 1] bcast_S262144x1_S262144x256_0_1 (rstdCol (centred v)) (ix2 r j)
    * param g (ix2 r j) + param b (ix2 r j) = _
  rw [fullOfCol_apply, centred_apply, rstdCol_apply, row_centred, param_apply, param_apply]
  rfl

end Cert.ReferenceIdeal.Whole

end
-- ==== Proof.HostNet.lean ====
/-
  The reference's results, row by row.

  The reference's run composes its host operations into stages. Each stage of interest is, definitionally, one of
  the pieces of HostOps applied to earlier stages; read row by row it is the row network of RowSpec with the
  parameters read off the argument arrays:

    the hidden result            = Zout w x z   (row r: zout w (row r of x) (row r of z))
    the output before its reshape = Dx w x z    (row r: dx w (row r of x) (row r of z)).

  The one place the two programs group a sum differently is the input of the second normalisation: the reference adds
  the injection to the product first and the bias last, the row network adds the bias to the product first; addition
  on the extended reals is associative, so the rows agree.
-/
import proofs.«169053_j15496242004634_1_alg».proof.Proof.Gen.ReferenceIdeal.Read
import proofs.«169053_j15496242004634_1_alg».proof.Proof.HostOps

noncomputable section

open scoped BigOperators

namespace Cert.ReferenceIdeal.Whole

open Cert.ReferenceIdeal Cert.ReferenceIdeal.Gen Cert.ReferenceIdeal.Read Idealize.ShloMosaic Idealize.ShloMosaic.ValueIdx Cert.RowNet

/-- Two rank-2 indices with the same coordinates are the same index. -/
theorem ix2_ext {a b : ℕ} (i i' : (⟨2, ![a, b]⟩ : Shape).Idx) (h0 : (i 0).val = (i' 0).val) (h1 : (i 1).val = (i' 1).val) :
    i = i' :=
  funext fun c => Fin.ext (by match c with | ⟨0, _⟩ => exact h0 | ⟨1, _⟩ => exact h1)

variable (x0 : FVec Ideal S262144x48 .f32) (x1 : FVec Ideal S262144x256 .f32)
  (x2 : FVec Ideal S48x256 .f32) (x3 x4 x5 : FVec Ideal S256 .f32)
  (x6 : FVec Ideal S256x256 .f32) (x7 x8 x9 : FVec Ideal S256 .f32)
  (x10 : FVec Ideal S256x256 .f32) (x11 x12 x13 x14 x15 : FVec Ideal S256 .f32)
  (x16 : FVec Ideal S256x32 .f32) (x17 : FVec Ideal S32 .f32)

local notation "w" => weights x2 x3 x4 x5 x6 x7 x8 x9 x10 x11 x12 x13 x14 x15 x16 x17

/-! ## The stages are compositions of the named pieces -/

theorem linIn_fold : val_main_v3 (F := Ideal) x0 x2 x3 = addf (val_main_v0 (F := Ideal) x0 x2) (param x3) := rfl

theorem xinp_fold : val_main_v27 (F := Ideal) x0 x2 x3 x4 x5 = normed (val_main_v3 (F := Ideal) x0 x2 x3) x4 x5 := rfl

theorem lin1_fold : val_main_v31 (F := Ideal) x1 x6 x7 = addf (val_main_v28 (F := Ideal) x1 x6) (param x7) := rfl

theorem z1_fold : val_main_v56 (F := Ideal) x1 x6 x7 x8 x9 = normed (rect (val_main_v31 (F := Ideal) x1 x6 x7)) x8 x9 := rfl

theorem preInner_fold :
    val_main_v61 (F := Ideal) x0 x1 x2 x3 x4 x5 x6 x7 x8 x9 x10 x11
      = addf (addf (val_main_v27 (F := Ideal) x0 x2 x3 x4 x5) (val_main_v57 (F := Ideal) x1 x6 x7 x8 x9 x10)) (param x11) := rfl

theorem inner_fold :
    val_main_v85 (F := Ideal) x0 x1 x2 x3 x4 x5 x6 x7 x8 x9 x10 x11 x12 x13
      = normed (val_main_v61 (F := Ideal) x0 x1 x2 x3 x4 x5 x6 x7 x8 x9 x10 x11) x12 x13 := rfl

theorem preOut_fold :
    val_main_v87 (F := Ideal) x0 x1 x2 x3 x4 x5 x6 x7 x8 x9 x10 x11 x12 x13
      = rect (addf (val_main_v56 (F := Ideal) x1 x6 x7 x8 x9) (val_main_v85 (F := Ideal) x0 x1 x2 x3 x4 x5 x6 x7 x8 x9 x10 x11 x12 x13)) := rfl

theorem zout_fold :
    val_main_v111 (F := Ideal) x0 x1 x2 x3 x4 x5 x6 x7 x8 x9 x10 x11 x12 x13 x14 x15
      = normed (val_main_v87 (F := Ideal) x0 x1 x2 x3 x4 x5 x6 x7 x8 x9 x10 x11 x12 x13) x14 x15 := rfl

theorem dx_fold :
    val_main_v115 (F := Ideal) x0 x1 x2 x3 x4 x5 x6 x7 x8 x9 x10 x11 x12 x13 x14 x15 x16 x17
      = addf (val_main_v112 (F := Ideal) x0 x1 x2 x3 x4 x5 x6 x7 x8 x9 x10 x11 x12 x13 x14 x15 x16) (paramOut x17) := rfl

/-! ## Rows of the stages -/

theorem row_addf (a b : FVec Ideal S262144x256 .f32) (r : Fin 262144) :
    row (addf a b) r = fun j => row a r j + row b r j := rfl

theorem row_rect (v : FVec Ideal S262144x256 .f32) (r : Fin 262144) : row (rect v) r = relu (row v r) :=
  funext fun j => rect_apply v r j

theorem row_param (g : FVec Ideal S256 .f32) (r : Fin 262144) : row (param g) r = coords g :=
  funext fun j => param_apply g r j

/-- The input product plus its bias. -/
theorem row_linIn (r : Fin 262144) : row (val_main_v3 (F := Ideal) x0 x2 x3) r = lin (row x0 r) (entries x2) (coords x3) := by
  funext j
  show val_main_v3 (F := Ideal) x0 x2 x3 (ix2 r j) = _
  rw [linIn_fold]
  show val_main_v0 (F := Ideal) x0 x2 (ix2 r j) + param x3 (ix2 r j) = _
  rw [val_main_v0_apply, param_apply]
  refine congrArg (· + _) (Finset.sum_congr rfl fun k _ => ?_)
  rw [show lidx_main_v0 (ix2 r j) k = ix2 r k from ix2_ext _ _ rfl rfl,
    show ridx_main_v0 (ix2 r j) k = ix2 k j from ix2_ext _ _ rfl rfl]
  rfl

theorem row_xinp (r : Fin 262144) : row (val_main_v27 (F := Ideal) x0 x2 x3 x4 x5) r = xinp w (row x0 r) := by
  rw [xinp_fold, row_normed, row_linIn]
  rfl

/-- The first hidden product plus its bias. -/
theorem row_lin1 (r : Fin 262144) : row (val_main_v31 (F := Ideal) x1 x6 x7) r = lin (row x1 r) (entries x6) (coords x7) := by
  funext j
  show val_main_v31 (F := Ideal) x1 x6 x7 (ix2 r j) = _
  rw [lin1_fold]
  show val_main_v28 (F := Ideal) x1 x6 (ix2 r j) + param x7 (ix2 r j) = _
  rw [val_main_v28_apply, param_apply]
  refine congrArg (· + _) (Finset.sum_congr rfl fun k _ => ?_)
  rw [show lidx_main_v28 (ix2 r j) k = ix2 r k from ix2_ext _ _ rfl rfl,
    show ridx_main_v28 (ix2 r j) k = ix2 k j from ix2_ext _ _ rfl rfl]
  rfl

theorem row_z1 (r : Fin 262144) : row (val_main_v56 (F := Ideal) x1 x6 x7 x8 x9) r = z1 w (row x1 r) := by
  rw [z1_fold, row_normed, row_rect, row_lin1]
  rfl

/-- The second product, of the first hidden array. -/
theorem row_mm2 (r : Fin 262144) (j : Fin 256) :
    val_main_v57 (F := Ideal) x1 x6 x7 x8 x9 x10 (ix2 r j)
      = ∑ k : Fin 256, row (val_main_v56 (F := Ideal) x1 x6 x7 x8 x9) r k * entries x10 k j := by
  rw [val_main_v57_apply]
  refine Finset.sum_congr rfl fun k _ => ?_
  rw [show lidx_main_v57 (ix2 r j) k = ix2 r k from ix2_ext _ _ rfl rfl,
    show ridx_main_v57 (ix2 r j) k = ix2 k j from ix2_ext _ _ rfl rfl]
  rfl

/-- The input of the second normalisation; here the reference's grouping of the three summands is re-associated. -/
theorem row_preInner (r : Fin 262144) :
    row (val_main_v61 (F := Ideal) x0 x1 x2 x3 x4 x5 x6 x7 x8 x9 x10 x11) r = preInner w (row x0 r) (row x1 r) := by
  have hx := row_xinp x0 x2 x3 x4 x5 x6 x7 x8 x9 x10 x11 x12 x13 x14 x15 x16 x17 r
  have hz := row_z1 x1 x2 x3 x4 x5 x6 x7 x8 x9 x10 x11 x12 x13 x14 x15 x16 x17 r
  funext j
  show val_main_v61 (F := Ideal) x0 x1 x2 x3 x4 x5 x6 x7 x8 x9 x10 x11 (ix2 r j) = _
  rw [preInner_fold]
  show (val_main_v27 (F := Ideal) x0 x2 x3 x4 x5 (ix2 r j) + val_main_v57 (F := Ideal) x1 x6 x7 x8 x9 x10 (ix2 r j))
    + param x11 (ix2 r j) = _
  rw [row_mm2, param_apply, hz, show val_main_v27 (F := Ideal) x0 x2 x3 x4 x5 (ix2 r j) = xinp w (row x0 r) j from congrFun hx j,
    add_assoc]
  rfl

theorem row_inner (r : Fin 262144) :
    row (val_main_v85 (F := Ideal) x0 x1 x2 x3 x4 x5 x6 x7 x8 x9 x10 x11 x12 x13) r = inner w (row x0 r) (row x1 r) := by
  rw [inner_fold, row_normed, row_preInner x0 x1 x2 x3 x4 x5 x6 x7 x8 x9 x10 x11 x12 x13 x14 x15 x16 x17]
  rfl

theorem row_preOut (r : Fin 262144) :
    row (val_main_v87 (F := Ideal) x0 x1 x2 x3 x4 x5 x6 x7 x8 x9 x10 x11 x12 x13) r = preOut w (row x0 r) (row x1 r) := by
  rw [preOut_fold, row_rect, row_addf, row_z1 x1 x2 x3 x4 x5 x6 x7 x8 x9 x10 x11 x12 x13 x14 x15 x16 x17,
    row_inner x0 x1 x2 x3 x4 x5 x6 x7 x8 x9 x10 x11 x12 x13 x14 x15 x16 x17]
  rfl

theorem row_zout (r : Fin 262144) :
    row (val_main_v111 (F := Ideal) x0 x1 x2 x3 x4 x5 x6 x7 x8 x9 x10 x11 x12 x13 x14 x15) r = zout w (row x0 r) (row x1 r) := by
  rw [zout_fold, row_normed, row_preOut x0 x1 x2 x3 x4 x5 x6 x7 x8 x9 x10 x11 x12 x13 x14 x15 x16 x17]
  rfl

/-- The hidden result is the row network applied row by row. -/
theorem zout_eq : val_main_v111 (F := Ideal) x0 x1 x2 x3 x4 x5 x6 x7 x8 x9 x10 x11 x12 x13 x14 x15 = Zout w x0 x1 := by
  funext i
  obtain ⟨r, j, rfl⟩ : ∃ (r : Fin 262144) (j : Fin 256), i = ix2 r j := ⟨i 0, i 1, eq_ix2 i⟩
  rw [Zout_ix2]
  exact congrFun (row_zout x0 x1 x2 x3 x4 x5 x6 x7 x8 x9 x10 x11 x12 x13 x14 x15 x16 x17 r) j

/-- The output before its reshape is the row network applied row by row. -/
theorem dx_eq : val_main_v115 (F := Ideal) x0 x1 x2 x3 x4 x5 x6 x7 x8 x9 x10 x11 x12 x13 x14 x15 x16 x17 = Dx w x0 x1 := by
  have hz := row_zout x0 x1 x2 x3 x4 x5 x6 x7 x8 x9 x10 x11 x12 x13 x14 x15 x16 x17
  funext i
  obtain ⟨r, j, rfl⟩ : ∃ (r : Fin 262144) (j : Fin 32), i = ix2 r j := ⟨i 0, i 1, eq_ix2 i⟩
  rw [Dx_ix2, dx_fold]
  show val_main_v112 (F := Ideal) x0 x1 x2 x3 x4 x5 x6 x7 x8 x9 x10 x11 x12 x13 x14 x15 x16 (ix2 r j) + paramOut x17 (ix2 r j) = _
  rw [val_main_v112_apply, paramOut_apply]
  refine congrArg (· + _) (Finset.sum_congr rfl fun k _ => ?_)
  rw [show lidx_main_v112 (ix2 r j) k = ix2 r k from ix2_ext _ _ rfl rfl,
    show ridx_main_v112 (ix2 r j) k = ix2 k j from ix2_ext _ _ rfl rfl]
  exact congrArg (· * _) (congrFun (hz r) k)

/-! ## The run's two results -/

section Results

variable (m : (ℓ : Loc nD τ sig) → Buf (Elt Ideal) ℓ)

open Idealize.ShloMosaic.TcCoe

/-- The reference's second result, the hidden array, is the row network of the launch contents of its arguments. -/
theorem res_zout (c : Dev nD) :
    Cert.ReferenceIdeal.Value.res_main_v111 m c
      = Zout (weights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
          (m ((c : Thread nD τ).loc main_arg0)) (m ((c : Thread nD τ).loc main_arg1)) :=
  (val_main_v111_eq m c).trans
    (zout_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))

/-- The reference's first result is the reshape of the 32-wide row network of the launch contents of its arguments. -/
theorem res_dx (c : Dev nD) :
    Cert.ReferenceIdeal.Value.res_main_v116 m c
      = shapeCast S262144x8x4
          (Dx (weights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
            (m ((c : Thread nD τ).loc main_arg0)) (m ((c : Thread nD τ).loc main_arg1)))
          shapeCasts_S262144x32_S262144x8x4 :=
  (val_main_v116_eq m c).trans
    (congrArg (fun A => shapeCast S262144x8x4 A shapeCasts_S262144x32_S262144x8x4)
      (dx_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))))

end Results

end Cert.ReferenceIdeal.Whole

end
-- ==== Proof.lean ====
/-
  A fused deep-equilibrium layer on 262144 rows: the kernel against the plain reference, over the extended reals.

  Both programs compute, for every row r, from row r of x (48 features), row r of z (256 features) and the sixteen
  parameter arrays,

    xinp  = LN(x · W_inp + b_inp)            z1   = LN(relu(z · W1 + b1))
    inner = LN(xinp + z1 · W2 + b2)          zout = LN(relu(z1 + inner))          dx = zout · W_out + b_out

  with LN(v) = (v − mean v) · (mean (v − mean v)² + ε)^(−1/2) · g + β over the row's 256 features. The kernel does
  this on blocks of 2048 rows, rounding the matrix operands to bf16 (the identity on the extended reals) and
  accumulating each product from zero; the reference does it on the whole arrays. Read at an entry, each side is
  the row network of RowSpec applied to row r (BlockNet for a block, HostNet for the whole array); the kernel's 128
  written-back blocks tile its two output arrays (KernelArrays); the one difference in grouping, xinp + (z1 · W2 + b2)
  against (xinp + z1 · W2) + b2, is associativity of addition. Both programs then re-lay the 32-wide output as
  [262144, 8, 4] by the same reshape. No law used needs finite inputs, so the precondition is never opened.

  The frames of the two kernel programs are the generated ones; the reference's frame is its generated run with the
  results dropped; the idealization rewrote nothing, so preservation is trivial.
-/
import proofs.«169053_j15496242004634_1_alg».proof.Defs
import proofs.«169053_j15496242004634_1_alg».proof.Proof.Gen.Kernel
import proofs.«169053_j15496242004634_1_alg».proof.Proof.Gen.Kernel.Frame
import proofs.«169053_j15496242004634_1_alg».proof.Proof.Gen.KernelIdeal
import proofs.«169053_j15496242004634_1_alg».proof.Proof.Gen.KernelIdeal.Frame
import proofs.«169053_j15496242004634_1_alg».proof.Proof.Gen.ReferenceIdeal
import proofs.«169053_j15496242004634_1_alg».proof.Proof.Gen.ReferenceIdeal.Run
import proofs.«169053_j15496242004634_1_alg».proof.Proof.Gen.ReferenceIdeal.Read
import proofs.«169053_j15496242004634_1_alg».proof.Proof.Gen.Pre_finite_inputs
import proofs.«169053_j15496242004634_1_alg».proof.Proof.KernelArrays
import proofs.«169053_j15496242004634_1_alg».proof.Proof.HostNet
import Idealize.ShloMosaic.Adequacy
import Idealize.ShloMosaic.Init

noncomputable section

namespace Cert.Proof

open Idealize.ShloMosaic Idealize.ShloMosaic.TcCoe Idealize.SL.Sem Cert.RowNet

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the eighteen arguments both programs end with their first result at the reshaped
    32-wide row network and their second at the hidden row network of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans ((Cert.ReferenceIdeal.Whole.res_dx m' c).trans ?_),
    (h c).2.1.trans ((Cert.ReferenceIdeal.Whole.res_zout m' c).trans ?_), (h c).2.2⟩
  · rw [h0, h1, h2, h3, h4, h5, h6, h7, h8, h9, h10, h11, h12, h13, h14, h15, h16, h17]
    rfl
  · rw [h0, h1, h2, h3, h4, h5, h6, h7, h8, h9, h10, h11, h12, h13, h14, h15]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
